-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x768 : Shape := ⟨2, ![65536, 768]⟩
abbrev S65536x1 : Shape := ⟨2, ![65536, 1]⟩
abbrev S1024x768 : Shape := ⟨2, ![1024, 768]⟩
abbrev S1024 : Shape := ⟨1, ![1024]⟩
abbrev S8x2048 : Shape := ⟨2, ![8, 2048]⟩
abbrev S8 : Shape := ⟨1, ![8]⟩
abbrev S32x8 : Shape := ⟨2, ![32, 8]⟩
abbrev S32 : Shape := ⟨1, ![32]⟩
abbrev S1x32 : Shape := ⟨2, ![1, 32]⟩
abbrev S1 : Shape := ⟨1, ![1]⟩
abbrev S_ : Shape := ⟨0, ![]⟩

class Facts : Prop where
  bcast_S_S65536x768 : S_.BroadcastsInDim S65536x768 (![] : Fin 0 → Fin S65536x768.rank)
  reducesTo_S65536x768_S_d0_1 : S65536x768.ReducesTo [0, 1] S_
  h_S_ : 0 < S_.numel
  bcast_S_S65536x1 : S_.BroadcastsInDim S65536x1 (![] : Fin 0 → Fin S65536x1.rank)
  reducesTo_S65536x1_S_d0_1 : S65536x1.ReducesTo [0, 1] S_
  bcast_S_S1024x768 : S_.BroadcastsInDim S1024x768 (![] : Fin 0 → Fin S1024x768.rank)
  reducesTo_S1024x768_S_d0_1 : S1024x768.ReducesTo [0, 1] S_
  bcast_S_S1024 : S_.BroadcastsInDim S1024 (![] : Fin 0 → Fin S1024.rank)
  reducesTo_S1024_S_d0 : S1024.ReducesTo [0] S_
  bcast_S_S8x2048 : S_.BroadcastsInDim S8x2048 (![] : Fin 0 → Fin S8x2048.rank)
  reducesTo_S8x2048_S_d0_1 : S8x2048.ReducesTo [0, 1] S_
  bcast_S_S8 : S_.BroadcastsInDim S8 (![] : Fin 0 → Fin S8.rank)
  reducesTo_S8_S_d0 : S8.ReducesTo [0] S_
  bcast_S_S32x8 : S_.BroadcastsInDim S32x8 (![] : Fin 0 → Fin S32x8.rank)
  reducesTo_S32x8_S_d0_1 : S32x8.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S32x8 .f32) (main_arg8 : FVec F S32 .f32) (main_arg9 : FVec F S1x32 .f32) (main_arg10 : FVec F S1 .f32) (main_v33 : IVec S_ 1) : IVec S_ 1 :=
  let main_v34 : FVec F S32x8 .f32 := Host.absf main_arg7
  let main_cst_12 : FVec F S_ .f32 := constant S_ .f32 0x7F800000#32
  let main_v35 : FVec F S32x8 .f32 := broadcastInDim S32x8 ![] bcast_S_S32x8 main_cst_12
  let main_v36 : IVec S32x8 1 := cmpf .olt main_v34 main_v35
  let main_c_13 : IVec S_ 1 := constantI S_ 1 1#1
  let main_v37 : IVec S_ 1 := (fun x v => Host.reduce IntOp.andi x v reducesTo_S32x8_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S1x32 .f32 := Host.absf main_arg9
  let main_cst_16 : FVec F S_ .f32 := constant S_ .f32 0x7F800000#32
  let main_v45 : FVec F S1x32 .f32 := broadcastInDim S1x32 ![] bcast_S_S1x32 main_cst_16
  let main_v46 : IVec S1x32 1 := cmpf .olt main_v44 main_v45
  let main_c_17 : IVec S_ 1 := constantI S_ 1 1#1
  let main_v47 : IVec S_ 1 := (fun x v => Host.reduce IntOp.andi x v reducesTo_S1x32_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S1024 .f32) (main_arg5 : FVec F S8x2048 .f32) (main_arg6 : FVec F S8 .f32) (main_arg7 : FVec F S32x8 .f32) (main_arg8 : FVec F S32 .f32) (main_arg9 : FVec F S1x32 .f32) (main_arg10 : FVec F S1 .f32) (main_v13 : IVec S_ 1) (main_v16 : IVec S1024x768 1) : IVec S_ 1 :=
  let main_c_5 : IVec S_ 1 := constantI S_ 1 1#1
  let main_v17 : IVec S_ 1 := (fun x v => Host.reduce IntOp.andi x v reducesTo_S1024x768_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S8x2048 .f32 := Host.absf main_arg5
  let main_cst_8 : FVec F S_ .f32 := constant S_ .f32 0x7F800000#32
  let main_v25 : FVec F S8x2048 .f32 := broadcastInDim S8x2048 ![] bcast_S_S8x2048 main_cst_8
  let main_v26 : IVec S8x2048 1 := cmpf .olt main_v24 main_v25
  let main_c_9 : IVec S_ 1 := constantI S_ 1 1#1
  let main_v27 : IVec S_ 1 := (fun x v => Host.reduce IntOp.andi x v reducesTo_S8x2048_S_d0_1 h_S_) main_v26 main_c_9
  let main_v28 : IVec S_ 1 := andi main_v23 main_v27
  let main_v29 : FVec F S8 .f32 := Host.absf main_arg6
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S65536x768 .f32) (main_arg1 : FVec F S65536x768 .f32) (main_arg2 : FVec F S65536x1 .f32) (main_arg3 : FVec F S1024x768 .f32) (main_arg4 : FVec F S1024 .f32) (main_arg5 : FVec F S8x2048 .f32) (main_arg6 : FVec F S8 .f32) (main_arg7 : FVec F S32x8 .f32) (main_arg8 : FVec F S32 .f32) (main_arg9 : FVec F S1x32 .f32) (main_arg10 : FVec F S1 .f32) : IVec S_ 1 :=
  let main_v0 : FVec F S65536x768 .f32 := Host.absf main_arg0
  let main_cst : FVec F S_ .f32 := constant S_ .f32 0x7F800000#32
  let main_v1 : FVec F S65536x768 .f32 := broadcastInDim S65536x768 ![] bcast_S_S65536x768 main_cst
  let main_v2 : IVec S65536x768 1 := cmpf .olt main_v0 main_v1
  let main_c : IVec S_ 1 := constantI S_ 1 1#1
  let main_v3 : IVec S_ 1 := (fun x v => Host.reduce IntOp.andi x v reducesTo_S65536x768_S_d0_1 h_S_) main_v2 main_c
  let main_v4 : FVec F S65536x768 .f32 := Host.absf main_arg1
  let main_cst_0 : FVec F S_ .f32 := constant S_ .f32 0x7F800000#32
  let main_v5 : FVec F S65536x768 .f32 := broadcastInDim S65536x768 ![] bcast_S_S65536x768 main_cst_0
  let main_v6 : IVec S65536x768 1 := cmpf .olt main_v4 main_v5
  let main_c_1 : IVec S_ 1 := constantI S_ 1 1#1
  let main_v7 : IVec S_ 1 := (fun x v => Host.reduce IntOp.andi x v reducesTo_S65536x768_S_d0_1 h_S_) main_v6 main_c_1
  let main_v8 : IVec S_ 1 := andi main_v3 main_v7
  let main_v9 : FVec F S65536x1 .f32 := Host.absf main_arg2
  let main_cst_2 : FVec F S_ .f32 := constant S_ .f32 0x7F800000#32
  let main_v10 : FVec F S65536x1 .f32 := broadcastInDim S65536x1 ![] bcast_S_S65536x1 main_cst_2
  let main_v11 : IVec S65536x1 1 := cmpf .olt main_v9 main_v10
  let main_c_3 : IVec S_ 1 := constantI S_ 1 1#1
  let main_v12 : IVec S_ 1 := (fun x v => Host.reduce IntOp.andi x v reducesTo_S65536x1_S_d0_1 h_S_) main_v11 main_c_3
  let main_v13 : IVec S_ 1 := andi main_v8 main_v12
  let main_v14 : FVec F S1024x768 .f32 := Host.absf main_arg3
  let main_cst_4 : FVec F S_ .f32 := constant S_ .f32 0x7F800000#32
  let main_v15 : FVec F S1024x768 .f32 := broadcastInDim S1024x768 ![] bcast_S_S1024x768 main_cst_4
  let main_v16 : IVec S1024x768 1 := cmpf .olt main_v14 main_v15
  fn_part1 (F := F) main_arg4 main_arg5 main_arg6 main_arg7 main_arg8 main_arg9 main_arg10 main_v13 main_v16
-- ==== Kernel.lean ====
abbrev S65536x768 : Shape := ⟨2, ![65536, 768]⟩
abbrev S65536x1 : Shape := ⟨2, ![65536, 1]⟩
abbrev S1024x768 : Shape := ⟨2, ![1024, 768]⟩
abbrev S1024 : Shape := ⟨1, ![1024]⟩
abbrev S8x2048 : Shape := ⟨2, ![8, 2048]⟩
abbrev S8 : Shape := ⟨1, ![8]⟩
abbrev S32x8 : Shape := ⟨2, ![32, 8]⟩
abbrev S32 : Shape := ⟨1, ![32]⟩
abbrev S1x32 : Shape := ⟨2, ![1, 32]⟩
abbrev S1 : Shape := ⟨1, ![1]⟩
abbrev S512x768 : Shape := ⟨2, ![512, 768]⟩
abbrev S512x1 : Shape := ⟨2, ![512, 1]⟩
abbrev S768x1024 : Shape := ⟨2, ![768, 1024]⟩
abbrev S512x1024 : Shape := ⟨2, ![512, 1024]⟩
abbrev S1x1024 : Shape := ⟨2, ![1, 1024]⟩
abbrev S8x1024 : Shape := ⟨2, ![8, 1024]⟩
abbrev S1024x8 : Shape := ⟨2, ![1024, 8]⟩
abbrev S512x8 : Shape := ⟨2, ![512, 8]⟩
abbrev S1x8 : Shape := ⟨2, ![1, 8]⟩
abbrev S8x32 : Shape := ⟨2, ![8, 32]⟩
abbrev S512x32 : Shape := ⟨2, ![512, 32]⟩
abbrev S32x1 : Shape := ⟨2, ![32, 1]⟩
abbrev S1x1 : Shape := ⟨2, ![1, 1]⟩

abbrev nBuf : Space → Nat
  | .hbm => 13
  | .vmem => 18
  | .smem => 0
  | _ => 0

abbrev bufTy : (tb : Table) → Fin (tcTables nBuf tb) → BufTy
  | .hbm, ⟨0, _⟩ => ⟨S65536x768, .f32⟩
  | .hbm, ⟨1, _⟩ => ⟨S65536x768, .f32⟩
  | .hbm, ⟨2, _⟩ => ⟨S65536x1, .f32⟩
  | .hbm, ⟨3, _⟩ => ⟨S1024x768, .f32⟩
  | .hbm, ⟨4, _⟩ => ⟨S1024, .f32⟩
  | .hbm, ⟨5, _⟩ => ⟨S8x2048, .f32⟩
  | .hbm, ⟨6, _⟩ => ⟨S8, .f32⟩
  | .hbm, ⟨7, _⟩ => ⟨S32x8, .f32⟩
  | .hbm, ⟨8, _⟩ => ⟨S32, .f32⟩
  | .hbm, ⟨9, _⟩ => ⟨S1x32, .f32⟩
  | .hbm, ⟨10, _⟩ => ⟨S1, .f32⟩
  | .hbm, ⟨11, _⟩ => ⟨S65536x1, .f32⟩
  | .hbm, ⟨12, _⟩ => ⟨S65536x1, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x1, .f32⟩
  | .local _ .vmem, ⟨5, _⟩ => ⟨S512x1, .f32⟩
  | .local _ .vmem, ⟨6, _⟩ => ⟨S1024x768, .f32⟩
  | .local _ .vmem, ⟨7, _⟩ => ⟨S1024, .f32⟩
  | .local _ .vmem, ⟨8, _⟩ => ⟨S8x2048, .f32⟩
  | .local _ .vmem, ⟨9, _⟩ => ⟨S8, .f32⟩
  | .local _ .vmem, ⟨10, _⟩ => ⟨S32x8, .f32⟩
  | .local _ .vmem, ⟨11, _⟩ => ⟨S32, .f32⟩
  | .local _ .vmem, ⟨12, _⟩ => ⟨S1x32, .f32⟩
  | .local _ .vmem, ⟨13, _⟩ => ⟨S1, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | .local _ .vmem, ⟨17, _⟩ => ⟨S512x1, .f32⟩
  | _, _ => ⟨S65536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  inb_S512x768_S512x768_0_0 : ∀ a, (![0, 0] : Fin 2 → Nat) a + S512x768.size a ≤ S512x768.size a
  h_S512x768 : 0 < S512x768.numel
  bitsLt_bf16_f32 : FTy.bits .bf16 < FTy.bits .f32
  inb_S1024x768_S1024x768_0_0 : ∀ a, (![0, 0] : Fin 2 → Nat) a + S1024x768.size a ≤ S1024x768.size a
  h_S1024x768 : 0 < S1024x768.numel
  inb_S1024_S1024_0 : ∀ a, (![0] : Fin 1 → Nat) a + S1024.size a ≤ S1024.size a
  h_S1024 : 0 < S1024.numel
  transposes_S1024x768_p1_0_S768x1024 : S1024x768.Transposes [1, 0] S768x1024
  shapeCasts_S1024_S1x1024 : S1024.ShapeCasts S1x1024
  broadcasts_S1x1024_S512x1024 : S1x1024.Broadcasts S512x1024
  inb_S512x1_S512x1_0_0 : ∀ a, (![0, 0] : Fin 2 → Nat) a + S512x1.size a ≤ S512x1.size a
  h_S512x1 : 0 < S512x1.numel
  broadcasts_S512x1_S512x1024 : S512x1.Broadcasts S512x1024
  inb_S8x2048_S8x2048_0_0 : ∀ a, (![0, 0] : Fin 2 → Nat) a + S8x2048.size a ≤ S8x2048.size a
  h_S8x2048 : 0 < S8x2048.numel
  slices_S8x2048_o0_0_S8x1024 : S8x2048.Slices ![0, 0] S8x1024
  slices_S8x2048_o0_1024_S8x1024 : S8x2048.Slices ![0, 1024] S8x1024
  inb_S8_S8_0 : ∀ a, (![0] : Fin 1 → Nat) a + S8.size a ≤ S8.size a
  h_S8 : 0 < S8.numel
  transposes_S8x1024_p1_0_S1024x8 : S8x1024.Transposes [1, 0] S1024x8
  shapeCasts_S8_S1x8 : S8.ShapeCasts S1x8
  broadcasts_S1x8_S512x8 : S1x8.Broadcasts S512x8
  inb_S32x8_S32x8_0_0 : ∀ a, (![0, 0] : Fin 2 → Nat) a + S32x8.size a ≤ S32x8.size a
  h_S32x8 : 0 < S32x8.numel
  inb_S32_S32_0 : ∀ a, (![0] : Fin 1 → Nat) a + S32.size a ≤ S32.size a
  h_S32 : 0 < S32.numel
  transposes_S32x8_p1_0_S8x32 : S32x8.Transposes [1, 0] S8x32
  shapeCasts_S32_S1x32 : S32.ShapeCasts S1x32
  broadcasts_S1x32_S512x32 : S1x32.Broadcasts S512x32
  inb_S1x32_S1x32_0_0 : ∀ a, (![0, 0] : Fin 2 → Nat) a + S1x32.size a ≤ S1x32.size a
  h_S1x32 : 0 < S1x32.numel
  inb_S1_S1_0 : ∀ a, (![0] : Fin 1 → Nat) a + S1.size a ≤ S1.size a
  h_S1 : 0 < S1.numel
  transposes_S1x32_p1_0_S32x1 : S1x32.Transposes [1, 0] S32x1
  shapeCasts_S1_S1x1 : S1.ShapeCasts S1x1
  broadcasts_S1x1_S512x1 : S1x1.Broadcasts S512x1
  dot_S512x768_S768x1024_S512x1024_1_0_0_1_n_n_wf : DotDims.WF S512x768 S768x1024 S512x1024 [1] [0] [0] [1] [] []
  dot_S512x1024_S1024x8_S512x8_1_0_0_1_n_n_wf : DotDims.WF S512x1024 S1024x8 S512x8 [1] [0] [0] [1] [] []
  dot_S512x8_S8x32_S512x32_1_0_0_1_n_n_wf : DotDims.WF S512x8 S8x32 S512x32 [1] [0] [0] [1] [] []
  dot_S512x32_S32x1_S512x1_1_0_0_1_n_n_wf : DotDims.WF S512x32 S32x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S65536x768.size a
  hwx0_0 : ∀ i : grid0.Coords, EltTy.bits .f32 = 32 ∨ (Rect.block (s := S65536x768) S512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x768.size a ≤ S65536x768.size a
  hwx0_1 : ∀ i : grid0.Coords, EltTy.bits .f32 = 32 ∨ (Rect.block (s := S65536x768) S512x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S65536x1.size a
  hwx0_2 : ∀ i : grid0.Coords, EltTy.bits .f32 = 32 ∨ (Rect.block (s := S65536x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x768.size a ≤ S1024x768.size a
  hwx0_3 : ∀ i : grid0.Coords, EltTy.bits .f32 = 32 ∨ (Rect.block (s := S1024x768) S1024x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x2048.size a ≤ S8x2048.size a
  hwx0_5 : ∀ i : grid0.Coords, EltTy.bits .f32 = 32 ∨ (Rect.block (s := S8x2048) S8x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8.size a ≤ S8.size a
  hwx0_6 : ∀ i : grid0.Coords, EltTy.bits .f32 = 32 ∨ (Rect.block (s := S8) S8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x8.size a ≤ S32x8.size a
  hwx0_7 : ∀ i : grid0.Coords, EltTy.bits .f32 = 32 ∨ (Rect.block (s := S32x8) S32x8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32.size a ≤ S32.size a
  hwx0_8 : ∀ i : grid0.Coords, EltTy.bits .f32 = 32 ∨ (Rect.block (s := S32) S32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .f32 = 32 ∨ (Rect.block (s := S1x32) S1x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1.size a ≤ S1.size a
  hwx0_10 : ∀ i : grid0.Coords, EltTy.bits .f32 = 32 ∨ (Rect.block (s := S1) S1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x1.size a ≤ S65536x1.size a
  hwx0_11 : ∀ i : grid0.Coords, EltTy.bits .f32 = 32 ∨ (Rect.block (s := S65536x1) S512x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x1.size a ≤ S65536x1.size a
  hwx0_12 : ∀ i : grid0.Coords, EltTy.bits .f32 = 32 ∨ (Rect.block (s := S65536x1) S512x1.size (cc0_transform_12 i) (hinb0_12 i)).WholeWords (EltTy.packing .f32)

variable [Facts₀]

def dot_S512x768_S768x1024_S512x1024_1_0_0_1_n_n : DotDims S512x768 S768x1024 S512x1024 where
  lhsContracting := [1]
  rhsContracting := [0]
  lhsNonContracting := [0]
  rhsNonContracting := [1]
  lhsBatch := []
  rhsBatch := []
  wf := dot_S512x768_S768x1024_S512x1024_1_0_0_1_n_n_wf
def dot_S512x1024_S1024x8_S512x8_1_0_0_1_n_n : DotDims S512x1024 S1024x8 S512x8 where
  lhsContracting := [1]
  rhsContracting := [0]
  lhsNonContracting := [0]
  rhsNonContracting := [1]
  lhsBatch := []
  rhsBatch := []
  wf := dot_S512x1024_S1024x8_S512x8_1_0_0_1_n_n_wf
def dot_S512x8_S8x32_S512x32_1_0_0_1_n_n : DotDims S512x8 S8x32 S512x32 where
  lhsContracting := [1]
  rhsContracting := [0]
  lhsNonContracting := [0]
  rhsNonContracting := [1]
  lhsBatch := []
  rhsBatch := []
  wf := dot_S512x8_S8x32_S512x32_1_0_0_1_n_n_wf
def dot_S512x32_S32x1_S512x1_1_0_0_1_n_n : DotDims S512x32 S32x1 S512x1 where
  lhsContracting := [1]
  rhsContracting := [0]
  lhsNonContracting := [0]
  rhsNonContracting := [1]
  lhsBatch := []
  rhsBatch := []
  wf := dot_S512x32_S32x1_S512x1_1_0_0_1_n_n_wf

abbrev win0_0 : Pipeline.Window sig grid0 :=
  Pipeline.Window.ofSpec (Memref.whole main_arg0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S8x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S32x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0_0) S512x1.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v0_1) S512x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S65536x768 : Shape := ⟨2, ![65536, 768]⟩
abbrev S65536x1 : Shape := ⟨2, ![65536, 1]⟩
abbrev S1024x768 : Shape := ⟨2, ![1024, 768]⟩
abbrev S1024 : Shape := ⟨1, ![1024]⟩
abbrev S8x2048 : Shape := ⟨2, ![8, 2048]⟩
abbrev S8 : Shape := ⟨1, ![8]⟩
abbrev S32x8 : Shape := ⟨2, ![32, 8]⟩
abbrev S32 : Shape := ⟨1, ![32]⟩
abbrev S1x32 : Shape := ⟨2, ![1, 32]⟩
abbrev S1 : Shape := ⟨1, ![1]⟩
abbrev S768x1024 : Shape := ⟨2, ![768, 1024]⟩
abbrev S65536x1024 : Shape := ⟨2, ![65536, 1024]⟩
abbrev S1x1024 : Shape := ⟨2, ![1, 1024]⟩
abbrev S65536x2048 : Shape := ⟨2, ![65536, 2048]⟩
abbrev S_ : Shape := ⟨0, ![]⟩
abbrev S2048x8 : Shape := ⟨2, ![2048, 8]⟩
abbrev S65536x8 : Shape := ⟨2, ![65536, 8]⟩
abbrev S1x8 : Shape := ⟨2, ![1, 8]⟩
abbrev S8x32 : Shape := ⟨2, ![8, 32]⟩
abbrev S65536x32 : Shape := ⟨2, ![65536, 32]⟩
abbrev S32x1 : Shape := ⟨2, ![32, 1]⟩
abbrev S1x1 : Shape := ⟨2, ![1, 1]⟩

abbrev nBuf : Space → Nat
  | .hbm => 78
  | .vmem => 0
  | .smem => 0
  | _ => 0

abbrev bufTy : (tb : Table) → Fin (tcTables nBuf tb) → BufTy
  | .hbm, ⟨0, _⟩ => ⟨S65536x768, .f32⟩
  | .hbm, ⟨1, _⟩ => ⟨S65536x768, .f32⟩
  | .hbm, ⟨2, _⟩ => ⟨S65536x1, .f32⟩
  | .hbm, ⟨3, _⟩ => ⟨S1024x768, .f32⟩
  | .hbm, ⟨4, _⟩ => ⟨S1024, .f32⟩
  | .hbm, ⟨5, _⟩ => ⟨S8x2048, .f32⟩
  | .hbm, ⟨6, _⟩ => ⟨S8, .f32⟩
  | .hbm, ⟨7, _⟩ => ⟨S32x8, .f32⟩
  | .hbm, ⟨8, _⟩ => ⟨S32, .f32⟩
  | .hbm, ⟨9, _⟩ => ⟨S1x32, .f32⟩
  | .hbm, ⟨10, _⟩ => ⟨S1, .f32⟩
  | .hbm, ⟨11, _⟩ => ⟨S768x1024, .f32⟩
  | .hbm, ⟨12, _⟩ => ⟨S65536x1024, .f32⟩
  | .hbm, ⟨13, _⟩ => ⟨S1x1024, .f32⟩
  | .hbm, ⟨14, _⟩ => ⟨S65536x1024, .f32⟩
  | .hbm, ⟨15, _⟩ => ⟨S65536x1024, .f32⟩
  | .hbm, ⟨16, _⟩ => ⟨S768x1024, .f32⟩
  | .hbm, ⟨17, _⟩ => ⟨S65536x1024, .f32⟩
  | .hbm, ⟨18, _⟩ => ⟨S1x1024, .f32⟩
  | .hbm, ⟨19, _⟩ => ⟨S65536x1024, .f32⟩
  | .hbm, ⟨20, _⟩ => ⟨S65536x1024, .f32⟩
  | .hbm, ⟨21, _⟩ => ⟨S65536x2048, .f32⟩
  | .hbm, ⟨22, _⟩ => ⟨S65536x2048, .f32⟩
  | .hbm, ⟨23, _⟩ => ⟨S65536x2048, .f32⟩
  | .hbm, ⟨24, _⟩ => ⟨S_, .f32⟩
  | .hbm, ⟨25, _⟩ => ⟨S65536x1, .f32⟩
  | .hbm, ⟨26, _⟩ => ⟨S65536x1, .f32⟩
  | .hbm, ⟨27, _⟩ => ⟨S65536x2048, .f32⟩
  | .hbm, ⟨28, _⟩ => ⟨S65536x2048, .f32⟩
  | .hbm, ⟨29, _⟩ => ⟨S65536x2048, .f32⟩
  | .hbm, ⟨30, _⟩ => ⟨S65536x2048, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S65536x2048, .f32⟩
  | .hbm, ⟨35, _⟩ => ⟨S65536x2048, .f32⟩
  | .hbm, ⟨36, _⟩ => ⟨S_, .f32⟩
  | .hbm, ⟨37, _⟩ => ⟨S65536x2048, .f32⟩
  | .hbm, ⟨38, _⟩ => ⟨S65536x2048, .f32⟩
  | .hbm, ⟨39, _⟩ => ⟨S2048x8, .f32⟩
  | .hbm, ⟨40, _⟩ => ⟨S65536x8, .f32⟩
  | .hbm, ⟨41, _⟩ => ⟨S1x8, .f32⟩
  | .hbm, ⟨42, _⟩ => ⟨S65536x8, .f32⟩
  | .hbm, ⟨43, _⟩ => ⟨S65536x8, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S65536x8, .f32⟩
  | .hbm, ⟨48, _⟩ => ⟨S65536x8, .f32⟩
  | .hbm, ⟨49, _⟩ => ⟨S_, .f32⟩
  | .hbm, ⟨50, _⟩ => ⟨S65536x8, .f32⟩
  | .hbm, ⟨51, _⟩ => ⟨S65536x8, .f32⟩
  | .hbm, ⟨52, _⟩ => ⟨S8x32, .f32⟩
  | .hbm, ⟨53, _⟩ => ⟨S65536x32, .f32⟩
  | .hbm, ⟨54, _⟩ => ⟨S1x32, .f32⟩
  | .hbm, ⟨55, _⟩ => ⟨S65536x32, .f32⟩
  | .hbm, ⟨56, _⟩ => ⟨S65536x32, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S65536x32, .f32⟩
  | .hbm, ⟨61, _⟩ => ⟨S65536x32, .f32⟩
  | .hbm, ⟨62, _⟩ => ⟨S_, .f32⟩
  | .hbm, ⟨63, _⟩ => ⟨S65536x32, .f32⟩
  | .hbm, ⟨64, _⟩ => ⟨S65536x32, .f32⟩
  | .hbm, ⟨65, _⟩ => ⟨S32x1, .f32⟩
  | .hbm, ⟨66, _⟩ => ⟨S65536x1, .f32⟩
  | .hbm, ⟨67, _⟩ => ⟨S1x1, .f32⟩
  | .hbm, ⟨68, _⟩ => ⟨S65536x1, .f32⟩
  | .hbm, ⟨69, _⟩ => ⟨S65536x1, .f32⟩
  | .hbm, ⟨70, _⟩ => ⟨S65536x1, .f32⟩
  | .hbm, ⟨71, _⟩ => ⟨S65536x1, .f32⟩
  | .hbm, ⟨72, _⟩ => ⟨S_, .f32⟩
  | .hbm, ⟨73, _⟩ => ⟨S65536x1, .f32⟩
  | .hbm, ⟨74, _⟩ => ⟨S65536x1, .f32⟩
  | .hbm, ⟨75, _⟩ => ⟨S_, .f32⟩
  | .hbm, ⟨76, _⟩ => ⟨S65536x1, .f32⟩
  | .hbm, ⟨77, _⟩ => ⟨S65536x1, .f32⟩
  | _, _ => ⟨S65536x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_0 : Ref sig .tc := ⟨.hbm, 31, rfl⟩
abbrev main_cst_1 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩
abbrev main_cst_3 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_4 : Ref sig .tc := ⟨.hbm, 57, rfl⟩
abbrev main_cst_5 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_6 : Ref sig .tc := ⟨.hbm, 72, rfl⟩
abbrev main_v39 : Ref sig .tc := ⟨.hbm, 73, rfl⟩
abbrev main_v40 : Ref sig .tc := ⟨.hbm, 74, rfl⟩
abbrev main_cst_7 : Ref sig .tc := ⟨.hbm, 75, rfl⟩
abbrev main_v41 : Ref sig .tc := ⟨.hbm, 76, rfl⟩
abbrev main_v42 : Ref sig .tc := ⟨.hbm, 77, rfl⟩

abbrev nD : Nat := 1
abbrev τ : Topo := Topo.v7x

variable {F : FTy → Type} [FloatOps F]

class Facts₀ : Prop where
  transposes_S1024x768_S768x1024_1_0 : S1024x768.Transposes [1, 0] S768x1024
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  concatenates_S65536x1024_S65536x1024_S65536x2048_d1 : Shape.Concatenates [S65536x1024, S65536x1024] S65536x2048 1
  bcast_S65536x1_S65536x2048_0_1 : S65536x1.BroadcastsInDim S65536x2048 (![0, 1] : Fin 2 → Fin S65536x2048.rank)
  bcast_S_S65536x1 : S_.BroadcastsInDim S65536x1 (![] : Fin 0 → Fin S65536x1.rank)
  bcast_S_S65536x2048 : S_.BroadcastsInDim S65536x2048 (![] : Fin 0 → Fin S65536x2048.rank)
  transposes_S8x2048_S2048x8_1_0 : S8x2048.Transposes [1, 0] S2048x8
  bcast_S8_S1x8_1 : S8.BroadcastsInDim S1x8 (![1] : Fin 1 → Fin S1x8.rank)
  bcast_S1x8_S65536x8_0_1 : S1x8.BroadcastsInDim S65536x8 (![0, 1] : Fin 2 → Fin S65536x8.rank)
  bcast_S_S65536x8 : S_.BroadcastsInDim S65536x8 (![] : Fin 0 → Fin S65536x8.rank)
  transposes_S32x8_S8x32_1_0 : S32x8.Transposes [1, 0] S8x32
  bcast_S32_S1x32_1 : S32.BroadcastsInDim S1x32 (![1] : Fin 1 → Fin S1x32.rank)
  bcast_S1x32_S65536x32_0_1 : S1x32.BroadcastsInDim S65536x32 (![0, 1] : Fin 2 → Fin S65536x32.rank)
  bcast_S_S65536x32 : S_.BroadcastsInDim S65536x32 (![] : Fin 0 → Fin S65536x32.rank)
  transposes_S1x32_S32x1_1_0 : S1x32.Transposes [1, 0] S32x1
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  dot_S65536x768_S768x1024_S65536x1024_1_0_0_1_n_n_wf : DotDims.WF S65536x768 S768x1024 S65536x1024 [1] [0] [0] [1] [] []
  dot_S65536x2048_S2048x8_S65536x8_1_0_0_1_n_n_wf : DotDims.WF S65536x2048 S2048x8 S65536x8 [1] [0] [0] [1] [] []
  dot_S65536x8_S8x32_S65536x32_1_0_0_1_n_n_wf : DotDims.WF S65536x8 S8x32 S65536x32 [1] [0] [0] [1] [] []
  dot_S65536x32_S32x1_S65536x1_1_0_0_1_n_n_wf : DotDims.WF S65536x32 S32x1 S65536x1 [1] [0] [0] [1] [] []

variable [Facts₀]

def dot_S65536x768_S768x1024_S65536x1024_1_0_0_1_n_n : DotDims S65536x768 S768x1024 S65536x1024 where
  lhsContracting := [1]
  rhsContracting := [0]
  lhsNonContracting := [0]
  rhsNonContracting := [1]
  lhsBatch := []
  rhsBatch := []
  wf := dot_S65536x768_S768x1024_S65536x1024_1_0_0_1_n_n_wf
def dot_S65536x2048_S2048x8_S65536x8_1_0_0_1_n_n : DotDims S65536x2048 S2048x8 S65536x8 where
  lhsContracting := [1]
  rhsContracting := [0]
  lhsNonContracting := [0]
  rhsNonContracting := [1]
  lhsBatch := []
  rhsBatch := []
  wf := dot_S65536x2048_S2048x8_S65536x8_1_0_0_1_n_n_wf
def dot_S65536x8_S8x32_S65536x32_1_0_0_1_n_n : DotDims S65536x8 S8x32 S65536x32 where
  lhsContracting := [1]
  rhsContracting := [0]
  lhsNonContracting := [0]
  rhsNonContracting := [1]
  lhsBatch := []
  rhsBatch := []
  wf := dot_S65536x8_S8x32_S65536x32_1_0_0_1_n_n_wf
def dot_S65536x32_S32x1_S65536x1_1_0_0_1_n_n : DotDims S65536x32 S32x1 S65536x1 where
  lhsContracting := [1]
  rhsContracting := [0]
  lhsNonContracting := [0]
  rhsNonContracting := [1]
  lhsBatch := []
  rhsBatch := []
  wf := dot_S65536x32_S32x1_S65536x1_1_0_0_1_n_n_wf

class Facts : Prop extends Facts₀ where

variable [Facts]
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.LibDense.lean ====
/-
  The product of an [M, K] array with the TRANSPOSE of an [N, K] array (a linear layer's x · wᵀ, the weight stored
  output-major), as one whole-array function over the extended reals: entry (r, c) is the sum over k of x (r, k) · w (c, k).
  Two computations are that function, for any extents and any dimension-numbers record contracting the left operand's
  axis 1 against the right operand's axis 0:
    * a block product into the zero accumulator whose operands were first narrowed to bf16 (a change of float format is
      the identity on the extended reals) and whose right operand was transposed;
    * the host's dot_general against the transposed weight.
  With it, a bias row added along the rows and a bias column multiplied along the columns, read at an index.
-/
import Idealize.ShloMosaic.PureOps.Ideal.Laws
import Idealize.ShloMosaic.Lib.ValueIdx
import Idealize.ShloMosaic.Lib.ValueLayout
import Idealize.ShloMosaic.Lib.Pipeline.Value
import proofs.«133182_j67053029425688_1_alg».proof.Proof.LibDotSum

noncomputable section

namespace Cert.Lib

open Idealize.ShloMosaic Idealize.ShloMosaic.ValueIdx

variable {M K N : Nat}

/-- x · wᵀ: entry (r, c) is the sum over k of x (r, k) · w (c, k). -/
def mulT (x : FVec Ideal ⟨2, ![M, K]⟩ .f32) (w : FVec Ideal ⟨2, ![N, K]⟩ .f32) : FVec Ideal ⟨2, ![M, N]⟩ .f32 :=
  fun i => ∑ k : Fin K, x (ix2 (i 0) k) * w (ix2 (i 1) k)

theorem mulT_apply (x : FVec Ideal ⟨2, ![M, K]⟩ .f32) (w : FVec Ideal ⟨2, ![N, K]⟩ .f32) (r : Fin M) (c : Fin N) :
    mulT x w (ix2 r c) = ∑ k : Fin K, x (ix2 r k) * w (ix2 c k) := rfl

/-- Row r of x · wᵀ depends on row r of x only: if two left operands agree on their rows r and r', so do the products. -/
theorem mulT_row_congr {M' : Nat} (x : FVec Ideal ⟨2, ![M, K]⟩ .f32) (x' : FVec Ideal ⟨2, ![M', K]⟩ .f32)
    (w : FVec Ideal ⟨2, ![N, K]⟩ .f32) (r : Fin M) (r' : Fin M') (h : ∀ k : Fin K, x (ix2 r k) = x' (ix2 r' k)) (c : Fin N) :
    mulT x w (ix2 r c) = mulT x' w (ix2 r' c) := by
  rw [mulT_apply, mulT_apply]
  exact Finset.sum_congr rfl fun k _ => by rw [h k]

/-- The block product of the narrowed operands, the right one transposed, into the zero accumulator, is x · wᵀ. -/
theorem matmul_trunc_transpose (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (x : FVec Ideal ⟨2, ![M, K]⟩ .f32) (w : FVec Ideal ⟨2, ![N, K]⟩ .f32)
    (hb : FTy.bf16.bits < FTy.f32.bits) (hb' : FTy.bf16.bits < FTy.f32.bits)
    (ht : (⟨2, ![N, K]⟩ : Shape).Transposes [1, 0] ⟨2, ![K, N]⟩) :
    matmul d prec (truncf .bf16 x hb) (transpose ⟨2, ![K, N]⟩ [1, 0] (truncf .bf16 w hb') ht)
        (constant ⟨2, ![M, N]⟩ .f32 0x00000000#32) = mulT x w := by
  funext i
  obtain ⟨r, c, rfl⟩ : ∃ (r : Fin M) (c : Fin N), i = ix2 r c := ⟨i 0, i 1, eq_ix2 i⟩
  rw [matmul_rc_apply d hlc hrc hln hrn hlb hrb, mulT_apply]
  refine Finset.sum_congr rfl fun k _ => ?_
  rw [transpose_ix2_apply]
  rfl

/-- The host's product against the transposed weight is x · wᵀ. -/
theorem dotGeneral_transpose (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (x : FVec Ideal ⟨2, ![M, K]⟩ .f32) (w : FVec Ideal ⟨2, ![N, K]⟩ .f32)
    (ht : (⟨2, ![N, K]⟩ : Shape).Transposes [1, 0] ⟨2, ![K, N]⟩) :
    Host.dotGeneral d prec x (transpose ⟨2, ![K, N]⟩ [1, 0] w ht) = mulT x w := by
  funext i
  obtain ⟨r, c, rfl⟩ : ∃ (r : Fin M) (c : Fin N), i = ix2 r c := ⟨i 0, i 1, eq_ix2 i⟩
  rw [dotGeneral_rc_apply d hlc hrc hln hrn hlb hrb, mulT_apply]
  refine Finset.sum_congr rfl fun k _ => ?_
  rw [transpose_ix2_apply]

/-- An [M, 1] column broadcast over N columns reads, at (r, c), the column's entry of row r. -/
theorem broadcastTo_a1_ab_apply {α : Type} (v : (⟨2, ![M, 1]⟩ : Shape).Idx → α)
    (h : (⟨2, ![M, 1]⟩ : Shape).Broadcasts ⟨2, ![M, N]⟩) (r : Fin M) (c : Fin N) :
    broadcastTo ⟨2, ![M, N]⟩ v h (ix2 r c) = v (ix2 r (0 : Fin 1)) := by
  refine broadcastTo_apply v h (ix2 r c) (ix2 r (0 : Fin 1)) fun ax => ?_
  match ax with
  | ⟨0, _⟩ =>
    show r.val = if M = 1 then 0 else r.val
    split
    · have := r.isLt; omega
    · rfl
  | ⟨1, _⟩ => rfl

/-- An [M] array cast to an [M, 1] column reads, at (r, u), the operand at r, whatever the unit coordinate u. -/
theorem shapeCast_a_a1_apply {α : Type} (x : (⟨1, ![M]⟩ : Shape).Idx → α)
    (h : (⟨1, ![M]⟩ : Shape).ShapeCasts ⟨2, ![M, 1]⟩) (r : Fin M) (u : Fin 1) :
    shapeCast ⟨2, ![M, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-! ## A linear layer with a bias row, and two of them around a tanh -/

/-- x · wᵀ + b: the bias, a [1, N] row, added along every row. -/
def affine (x : FVec Ideal ⟨2, ![M, K]⟩ .f32) (w : FVec Ideal ⟨2, ![N, K]⟩ .f32) (b : FVec Ideal ⟨2, ![1, N]⟩ .f32) :
    FVec Ideal ⟨2, ![M, N]⟩ .f32 :=
  fun i => mulT x w i + b (ix2 (0 : Fin 1) (i 1))

theorem affine_apply (x : FVec Ideal ⟨2, ![M, K]⟩ .f32) (w : FVec Ideal ⟨2, ![N, K]⟩ .f32) (b : FVec Ideal ⟨2, ![1, N]⟩ .f32)
    (r : Fin M) (c : Fin N) :
    affine x w b (ix2 r c) = (∑ k : Fin K, x (ix2 r k) * w (ix2 c k)) + b (ix2 (0 : Fin 1) c) := rfl

/-- Row r of a linear layer's output depends on row r of its input only. -/
theorem affine_row_congr {M' : Nat} (x : FVec Ideal ⟨2, ![M, K]⟩ .f32) (x' : FVec Ideal ⟨2, ![M', K]⟩ .f32)
    (w : FVec Ideal ⟨2, ![N, K]⟩ .f32) (b : FVec Ideal ⟨2, ![1, N]⟩ .f32) (r : Fin M) (r' : Fin M')
    (h : ∀ k : Fin K, x (ix2 r k) = x' (ix2 r' k)) (c : Fin N) :
    affine x w b (ix2 r c) = affine x' w b (ix2 r' c) := by
  rw [affine_apply, affine_apply]
  exact congrArg (· + b (ix2 (0 : Fin 1) c)) (Finset.sum_congr rfl fun k _ => by rw [h k])

/-- tanh of every entry. -/
def tanhA {s : Shape} (y : FVec Ideal s .f32) : FVec Ideal s .f32 := fun i => Ideal.tanh (y i)

theorem tanhA_apply {s : Shape} (y : FVec Ideal s .f32) (i : s.Idx) : tanhA y i = Ideal.tanh (y i) := rfl

/-- The device's vector tanh and the host's are that map on the extended reals. -/
theorem tanh_eq_tanhA {s : Shape} (y : FVec Ideal s .f32) : tanh y = tanhA y := rfl
theorem hostTanh_eq_tanhA {s : Shape} (y : FVec Ideal s .f32) : Host.tanh y = tanhA y := rfl

/-- A two-layer network (layer, tanh, layer) is row-local: its output's row r depends on its input's row r only. -/
theorem affine_tanh_affine_row_congr {M' H : Nat} (x : FVec Ideal ⟨2, ![M, K]⟩ .f32) (x' : FVec Ideal ⟨2, ![M', K]⟩ .f32)
    (w₁ : FVec Ideal ⟨2, ![H, K]⟩ .f32) (b₁ : FVec Ideal ⟨2, ![1, H]⟩ .f32)
    (w₂ : FVec Ideal ⟨2, ![N, H]⟩ .f32) (b₂ : FVec Ideal ⟨2, ![1, N]⟩ .f32) (r : Fin M) (r' : Fin M')
    (h : ∀ k : Fin K, x (ix2 r k) = x' (ix2 r' k)) (c : Fin N) :
    affine (tanhA (affine x w₁ b₁)) w₂ b₂ (ix2 r c) = affine (tanhA (affine x' w₁ b₁)) w₂ b₂ (ix2 r' c) :=
  affine_row_congr _ _ w₂ b₂ r r' (fun k => congrArg Ideal.tanh (affine_row_congr x x' w₁ b₁ r r' h k)) c

/-- The device's form of the layer: the block product of the narrowed operands into the zero accumulator, plus the bias
    row broadcast over the rows. -/
theorem addf_matmul_bias (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (x : FVec Ideal ⟨2, ![M, K]⟩ .f32) (w : FVec Ideal ⟨2, ![N, K]⟩ .f32) (b : FVec Ideal ⟨2, ![1, N]⟩ .f32)
    (hb : FTy.bf16.bits < FTy.f32.bits) (hb' : FTy.bf16.bits < FTy.f32.bits)
    (ht : (⟨2, ![N, K]⟩ : Shape).Transposes [1, 0] ⟨2, ![K, N]⟩)
    (hbc : (⟨2, ![1, N]⟩ : Shape).Broadcasts ⟨2, ![M, N]⟩) :
    addf (matmul d prec (truncf .bf16 x hb) (transpose ⟨2, ![K, N]⟩ [1, 0] (truncf .bf16 w hb') ht)
        (constant ⟨2, ![M, N]⟩ .f32 0x00000000#32)) (broadcastTo ⟨2, ![M, N]⟩ b hbc) = affine x w b := by
  rw [matmul_trunc_transpose d hlc hrc hln hrn hlb hrb]
  funext i
  obtain ⟨r, c, rfl⟩ : ∃ (r : Fin M) (c : Fin N), i = ix2 r c := ⟨i 0, i 1, eq_ix2 i⟩
  rw [addf_apply, broadcastTo_1b_ab_apply]
  rfl

/-- An [N] vector laid along the columns of an [M, N] array through a [1, N] row reads, at (r, c), the vector at c. -/
theorem broadcastInDim_row_apply {α : Type} (h₁ : (⟨1, ![N]⟩ : Shape).BroadcastsInDim ⟨2, ![1, N]⟩ ![1])
    (h₂ : (⟨2, ![1, N]⟩ : Shape).BroadcastsInDim ⟨2, ![M, N]⟩ ![0, 1]) (v : (⟨1, ![N]⟩ : Shape).Idx → α)
    (r : Fin M) (c : Fin N) :
    broadcastInDim ⟨2, ![M, N]⟩ ![0, 1] h₂ (broadcastInDim ⟨2, ![1, N]⟩ ![1] h₁ v) (ix2 r c) = v (ix1 c) := by
  refine (broadcastInDim_apply ![0, 1] h₂ _ (ix2 r c) (ix2 (0 : Fin 1) c) fun a => ?_).trans
    (broadcastInDim_apply ![1] h₁ v (ix2 (0 : Fin 1) c) (ix1 c) fun a => ?_)
  · match a with
    | ⟨0, _⟩ => rfl
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- An [M] vector laid along the rows of an [M, N] array through an [M, 1] column reads, at (r, c), the vector at r. -/
theorem broadcastInDim_col_apply {α : Type} (h₁ : (⟨1, ![M]⟩ : Shape).BroadcastsInDim ⟨2, ![M, 1]⟩ ![0])
    (h₂ : (⟨2, ![M, 1]⟩ : Shape).BroadcastsInDim ⟨2, ![M, N]⟩ ![0, 1]) (v : (⟨1, ![M]⟩ : Shape).Idx → α)
    (r : Fin M) (c : Fin N) :
    broadcastInDim ⟨2, ![M, N]⟩ ![0, 1] h₂ (broadcastInDim ⟨2, ![M, 1]⟩ ![0] h₁ v) (ix2 r c) = v (ix1 r) := by
  refine (broadcastInDim_apply ![0, 1] h₂ _ (ix2 r c) (ix2 r (0 : Fin 1)) fun a => ?_).trans
    (broadcastInDim_apply ![0] h₁ v (ix2 r (0 : Fin 1)) (ix1 r) fun a => ?_)
  · match a with
    | ⟨0, _⟩ =>
      show r.val = if M = 1 then 0 else r.val
      split
      · have := r.isLt; omega
      · rfl
    | ⟨1, _⟩ => rfl
  · match a with
    | ⟨0, _⟩ =>
      show r.val = if M = 1 then 0 else r.val
      split
      · have := r.isLt; omega
      · rfl

/-- The host's form of the layer: the product against the transposed weight, plus the [N] bias laid along the columns;
    the bias row is the [N] vector cast to [1, N]. -/
theorem addf_dotGeneral_bias (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (x : FVec Ideal ⟨2, ![M, K]⟩ .f32) (w : FVec Ideal ⟨2, ![N, K]⟩ .f32) (b : FVec Ideal ⟨1, ![N]⟩ .f32)
    (ht : (⟨2, ![N, K]⟩ : Shape).Transposes [1, 0] ⟨2, ![K, N]⟩)
    (h₁ : (⟨1, ![N]⟩ : Shape).BroadcastsInDim ⟨2, ![1, N]⟩ ![1])
    (h₂ : (⟨2, ![1, N]⟩ : Shape).BroadcastsInDim ⟨2, ![M, N]⟩ ![0, 1])
    (hc : (⟨1, ![N]⟩ : Shape).ShapeCasts ⟨2, ![1, N]⟩) :
    addf (Host.dotGeneral d prec x (transpose ⟨2, ![K, N]⟩ [1, 0] w ht))
        (broadcastInDim ⟨2, ![M, N]⟩ ![0, 1] h₂ (broadcastInDim ⟨2, ![1, N]⟩ ![1] h₁ b))
      = affine x w (shapeCast ⟨2, ![1, N]⟩ b hc) := by
  rw [dotGeneral_transpose d hlc hrc hln hrn hlb hrb]
  funext i
  obtain ⟨r, c, rfl⟩ : ∃ (r : Fin M) (c : Fin N), i = ix2 r c := ⟨i 0, i 1, eq_ix2 i⟩
  rw [addf_apply, broadcastInDim_row_apply, affine_apply, shapeCast_a_1a_apply]
  rfl

end Cert.Lib

end
-- ==== Proof.Layers.lean ====
/-
  A two-perspective evaluation network over the extended reals, as whole-array functions of any number M of rows.

  Each row carries two 768-feature vectors (white, black) and a side-to-move weight s. The feature transformer is one
  linear layer x · ftwᵀ + ftb applied to both vectors, giving W and B (1024 wide). The two perspectives are mixed,
  s · W + (1 − s) · B and s · B + (1 − s) · W, clamped to [0, 1], and fed to a linear layer whose 2048-wide weight
  rows are split in halves: the first half meets the first mix, the second half the second mix. Two more clamped
  linear layers (8 → 32 → 1) give the raw score; the output is its logistic.

  A sum over 2048 indices is the sum over the first 1024 plus the sum over the last 1024 whatever the terms are, so
  the layer over the concatenated mixes equals the sum of the two half-layers with no condition on the values.
  Every layer acts row by row: row r of a result depends on row r of its input only.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import proofs.«133182_j67053029425688_1_alg».proof.Proof.LibDense

noncomputable section

namespace Cert.Nnue

open Idealize.ShloMosaic Idealize.ShloMosaic.ValueIdx Cert.Lib

variable {M M' N K : Nat}

/-- The f32 words of one and zero, as extended reals. -/
abbrev one : Ideal .f32 := Ideal.ofBits .f32 0x3F800000#32
abbrev zero : Ideal .f32 := Ideal.ofBits .f32 0x00000000#32

/-! ## The layers -/

/-- Clamp every entry to [0, 1]: min 1 (max 0 y). -/
def clip01 {s : Shape} (y : FVec Ideal s .f32) : FVec Ideal s .f32 := fun i => min one (max zero (y i))

theorem clip01_apply {s : Shape} (y : FVec Ideal s .f32) (i : s.Idx) : clip01 y i = min one (max zero (y i)) := rfl

/-- s · A + (1 − s) · B, the weight s a column: one weight per row. -/
def mix (s : FVec Ideal ⟨2, ![M, 1]⟩ .f32) (A B : FVec Ideal ⟨2, ![M, N]⟩ .f32) : FVec Ideal ⟨2, ![M, N]⟩ .f32 :=
  fun i => s (ix2 (i 0) (0 : Fin 1)) * A i + (one - s (ix2 (i 0) (0 : Fin 1))) * B i

theorem mix_apply (s : FVec Ideal ⟨2, ![M, 1]⟩ .f32) (A B : FVec Ideal ⟨2, ![M, N]⟩ .f32) (r : Fin M) (c : Fin N) :
    mix s A B (ix2 r c) = s (ix2 r (0 : Fin 1)) * A (ix2 r c) + (one - s (ix2 r (0 : Fin 1))) * B (ix2 r c) := rfl

/-- An [N] vector as a [1, N] row. -/
def rowOf (b : FVec Ideal ⟨1, ![N]⟩ .f32) : FVec Ideal ⟨2, ![1, N]⟩ .f32 := fun i => b (ix1 (i 1))

theorem shapeCast_rowOf (b : FVec Ideal ⟨1, ![N]⟩ .f32) (h : (⟨1, ![N]⟩ : Shape).ShapeCasts ⟨2, ![1, N]⟩) :
    shapeCast ⟨2, ![1, N]⟩ b h = rowOf b := by
  funext i
  obtain ⟨u, c, rfl⟩ : ∃ (u : Fin 1) (c : Fin N), i = ix2 u c := ⟨i 0, i 1, eq_ix2 i⟩
  exact shapeCast_a_1a_apply b h u c

/-- Index k of the first half, and of the second half, of 2048 = 1024 + 1024. -/
abbrev lo (k : Fin 1024) : Fin 2048 := ⟨k.val, by omega⟩
abbrev hi (k : Fin 1024) : Fin 2048 := ⟨1024 + k.val, by omega⟩

/-- A sum over 2048 indices splits at 1024, whatever the terms. -/
theorem sum_split {β : Type} [AddCommMonoid β] (f : Fin 2048 → β) :
    ∑ k : Fin 2048, f k = (∑ k : Fin 1024, f (lo k)) + ∑ k : Fin 1024, f (hi k) :=
  Fin.sum_univ_add (a := 1024) (b := 1024) f

/-- The linear layer over two 1024-wide inputs a, b whose weight rows are 2048 wide: a against the first half of each
    weight row, b against the second half, plus the bias row. -/
def affineSplit (a b : FVec Ideal ⟨2, ![M, 1024]⟩ .f32) (w : FVec Ideal ⟨2, ![N, 2048]⟩ .f32)
    (bias : FVec Ideal ⟨2, ![1, N]⟩ .f32) : FVec Ideal ⟨2, ![M, N]⟩ .f32 :=
  fun i => ((∑ k : Fin 1024, a (ix2 (i 0) k) * w (ix2 (i 1) (lo k)))
      + ∑ k : Fin 1024, b (ix2 (i 0) k) * w (ix2 (i 1) (hi k))) + bias (ix2 (0 : Fin 1) (i 1))

theorem affineSplit_apply (a b : FVec Ideal ⟨2, ![M, 1024]⟩ .f32) (w : FVec Ideal ⟨2, ![N, 2048]⟩ .f32)
    (bias : FVec Ideal ⟨2, ![1, N]⟩ .f32) (r : Fin M) (c : Fin N) :
    affineSplit a b w bias (ix2 r c) = ((∑ k : Fin 1024, a (ix2 r k) * w (ix2 c (lo k)))
      + ∑ k : Fin 1024, b (ix2 r k) * w (ix2 c (hi k))) + bias (ix2 (0 : Fin 1) c) := rfl

/-- The logistic of every entry. -/
def sigmoid {s : Shape} (y : FVec Ideal s .f32) : FVec Ideal s .f32 := fun i => Ideal.logistic (y i)

/-! ## The network -/

/-- The raw score of every row. -/
def raw (white black : FVec Ideal ⟨2, ![M, 768]⟩ .f32) (stm : FVec Ideal ⟨2, ![M, 1]⟩ .f32)
    (ftw : FVec Ideal ⟨2, ![1024, 768]⟩ .f32) (ftb : FVec Ideal ⟨1, ![1024]⟩ .f32)
    (l1w : FVec Ideal ⟨2, ![8, 2048]⟩ .f32) (l1b : FVec Ideal ⟨1, ![8]⟩ .f32)
    (l2w : FVec Ideal ⟨2, ![32, 8]⟩ .f32) (l2b : FVec Ideal ⟨1, ![32]⟩ .f32)
    (l3w : FVec Ideal ⟨2, ![1, 32]⟩ .f32) (l3b : FVec Ideal ⟨1, ![1]⟩ .f32) : FVec Ideal ⟨2, ![M, 1]⟩ .f32 :=
  affine (clip01 (affine (clip01 (affineSplit
      (clip01 (mix stm (affine white ftw (rowOf ftb)) (affine black ftw (rowOf ftb))))
      (clip01 (mix stm (affine black ftw (rowOf ftb)) (affine white ftw (rowOf ftb))))
      l1w (rowOf l1b))) l2w (rowOf l2b))) l3w (rowOf l3b)

/-! ## Row locality -/

theorem mix_row_congr (s : FVec Ideal ⟨2, ![M, 1]⟩ .f32) (s' : FVec Ideal ⟨2, ![M', 1]⟩ .f32)
    (A B : FVec Ideal ⟨2, ![M, N]⟩ .f32) (A' B' : FVec Ideal ⟨2, ![M', N]⟩ .f32) (r : Fin M) (r' : Fin M') (c : Fin N)
    (hs : s (ix2 r (0 : Fin 1)) = s' (ix2 r' (0 : Fin 1))) (hA : A (ix2 r c) = A' (ix2 r' c)) (hB : B (ix2 r c) = B' (ix2 r' c)) :
    mix s A B (ix2 r c) = mix s' A' B' (ix2 r' c) := by
  rw [mix_apply, mix_apply, hs, hA, hB]

theorem affineSplit_row_congr (a b : FVec Ideal ⟨2, ![M, 1024]⟩ .f32) (a' b' : FVec Ideal ⟨2, ![M', 1024]⟩ .f32)
    (w : FVec Ideal ⟨2, ![N, 2048]⟩ .f32) (bias : FVec Ideal ⟨2, ![1, N]⟩ .f32) (r : Fin M) (r' : Fin M')
    (ha : ∀ k : Fin 1024, a (ix2 r k) = a' (ix2 r' k)) (hb : ∀ k : Fin 1024, b (ix2 r k) = b' (ix2 r' k)) (c : Fin N) :
    affineSplit a b w bias (ix2 r c) = affineSplit a' b' w bias (ix2 r' c) := by
  rw [affineSplit_apply, affineSplit_apply]
  congr 2
  · exact Finset.sum_congr rfl fun k _ => by rw [ha k]
  · exact Finset.sum_congr rfl fun k _ => by rw [hb k]

/-- Row r of the raw score depends on row r of the three per-row inputs only. -/
theorem raw_row_congr (white black : FVec Ideal ⟨2, ![M, 768]⟩ .f32) (stm : FVec Ideal ⟨2, ![M, 1]⟩ .f32)
    (white' black' : FVec Ideal ⟨2, ![M', 768]⟩ .f32) (stm' : FVec Ideal ⟨2, ![M', 1]⟩ .f32)
    (ftw : FVec Ideal ⟨2, ![1024, 768]⟩ .f32) (ftb : FVec Ideal ⟨1, ![1024]⟩ .f32)
    (l1w : FVec Ideal ⟨2, ![8, 2048]⟩ .f32) (l1b : FVec Ideal ⟨1, ![8]⟩ .f32)
    (l2w : FVec Ideal ⟨2, ![32, 8]⟩ .f32) (l2b : FVec Ideal ⟨1, ![32]⟩ .f32)
    (l3w : FVec Ideal ⟨2, ![1, 32]⟩ .f32) (l3b : FVec Ideal ⟨1, ![1]⟩ .f32) (r : Fin M) (r' : Fin M')
    (hw : ∀ k : Fin 768, white (ix2 r k) = white' (ix2 r' k)) (hb : ∀ k : Fin 768, black (ix2 r k) = black' (ix2 r' k))
    (hs : stm (ix2 r (0 : Fin 1)) = stm' (ix2 r' (0 : Fin 1))) (u : Fin 1) :
    raw white black stm ftw ftb l1w l1b l2w l2b l3w l3b (ix2 r u)
      = raw white' black' stm' ftw ftb l1w l1b l2w l2b l3w l3b (ix2 r' u) := by
  unfold raw
  refine affine_row_congr _ _ l3w _ r r' (fun k => ?_) u
  rw [clip01_apply, clip01_apply]
  refine congrArg (fun z => min one (max zero z)) (affine_row_congr _ _ l2w _ r r' (fun k => ?_) k)
  rw [clip01_apply, clip01_apply]
  refine congrArg (fun z => min one (max zero z)) (affineSplit_row_congr _ _ _ _ l1w _ r r' (fun k => ?_) (fun k => ?_) k)
  · rw [clip01_apply, clip01_apply]
    exact congrArg (fun z => min one (max zero z)) (mix_row_congr _ _ _ _ _ _ r r' k hs
      (affine_row_congr white white' ftw _ r r' hw k) (affine_row_congr black black' ftw _ r r' hb k))
  · rw [clip01_apply, clip01_apply]
    exact congrArg (fun z => min one (max zero z)) (mix_row_congr _ _ _ _ _ _ r r' k hs
      (affine_row_congr black black' ftw _ r r' hb k) (affine_row_congr white white' ftw _ r r' hw k))

end Cert.Nnue

end
-- ==== Proof.DeviceForms.lean ====
/-
  The device's spellings of the layers: each is the whole-array function of Layers, for any number of rows.
  Narrowing to bf16 is the identity on the extended reals, a block product into the zero accumulator is the plain sum
  of products, and a [M, 1] column broadcast along the columns reads the column's entry of the row.
-/
import proofs.«133182_j67053029425688_1_alg».proof.Proof.Layers

noncomputable section

namespace Cert.Nnue

open Idealize.ShloMosaic Idealize.ShloMosaic.ValueIdx Cert.Lib

variable {M N : Nat}

/-- min 1 (max 0 y), the bounds splat from their f32 words. -/
theorem dev_clip {s : Shape} (y : FVec Ideal s .f32) :
    minimumf (broadcast s (Scalar.ofBits (F := Ideal) .f32 0x3F800000#32))
      (maximumf (broadcast s (Scalar.ofBits (F := Ideal) .f32 0x00000000#32)) y) = clip01 y := by
  funext i
  rfl

/-- s · A + (1 − s) · B with the column s, and the column 1 − s, broadcast along the columns. -/
theorem dev_mix (s : FVec Ideal ⟨2, ![M, 1]⟩ .f32) (A B : FVec Ideal ⟨2, ![M, N]⟩ .f32)
    (h : (⟨2, ![M, 1]⟩ : Shape).Broadcasts ⟨2, ![M, N]⟩) :
    addf (mulf (broadcastTo ⟨2, ![M, N]⟩ s h) A)
        (mulf (broadcastTo ⟨2, ![M, N]⟩ (subf (broadcast ⟨2, ![M, 1]⟩ (Scalar.ofBits (F := Ideal) .f32 0x3F800000#32)) s) h) B)
      = mix s A B := by
  funext i
  obtain ⟨r, c, rfl⟩ : ∃ (r : Fin M) (c : Fin N), i = ix2 r c := ⟨i 0, i 1, eq_ix2 i⟩
  show broadcastTo ⟨2, ![M, N]⟩ s h (ix2 r c) * A (ix2 r c)
      + broadcastTo ⟨2, ![M, N]⟩ (subf (broadcast ⟨2, ![M, 1]⟩ (Scalar.ofBits (F := Ideal) .f32 0x3F800000#32)) s) h (ix2 r c)
        * B (ix2 r c) = _
  rw [broadcastTo_a1_ab_apply, broadcastTo_a1_ab_apply]
  rfl

/-- The first half and the second half of each 2048-wide weight row, as slices read at an index. -/
theorem slice_lo_apply (w : FVec Ideal ⟨2, ![N, 2048]⟩ .f32) (h : (⟨2, ![N, 2048]⟩ : Shape).Slices ![0, 0] ⟨2, ![N, 1024]⟩)
    (c : Fin N) (k : Fin 1024) : extractStridedSlice ⟨2, ![N, 1024]⟩ ![0, 0] w h (ix2 c k) = w (ix2 c (lo k)) :=
  extractStridedSlice_apply ![0, 0] w h (ix2 c k) (ix2 c (lo k)) fun a => match a with
    | ⟨0, _⟩ => (Nat.zero_add _).symm
    | ⟨1, _⟩ => (Nat.zero_add _).symm

theorem slice_hi_apply (w : FVec Ideal ⟨2, ![N, 2048]⟩ .f32) (h : (⟨2, ![N, 2048]⟩ : Shape).Slices ![0, 1024] ⟨2, ![N, 1024]⟩)
    (c : Fin N) (k : Fin 1024) : extractStridedSlice ⟨2, ![N, 1024]⟩ ![0, 1024] w h (ix2 c k) = w (ix2 c (hi k)) :=
  extractStridedSlice_apply ![0, 1024] w h (ix2 c k) (ix2 c (hi k)) fun a => match a with
    | ⟨0, _⟩ => (Nat.zero_add _).symm
    | ⟨1, _⟩ => rfl

/-- The split layer on the device: two block products, each against the transposed narrowed half of the weight, added,
    plus the bias row broadcast along the rows. -/
theorem dev_affineSplit (d : DotDims ⟨2, ![M, 1024]⟩ ⟨2, ![1024, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (a b : FVec Ideal ⟨2, ![M, 1024]⟩ .f32) (w : FVec Ideal ⟨2, ![N, 2048]⟩ .f32) (bias : FVec Ideal ⟨2, ![1, N]⟩ .f32)
    (hb₁ hb₂ hb₃ hb₄ : FTy.bf16.bits < FTy.f32.bits)
    (hs₀ : (⟨2, ![N, 2048]⟩ : Shape).Slices ![0, 0] ⟨2, ![N, 1024]⟩)
    (hs₁ : (⟨2, ![N, 2048]⟩ : Shape).Slices ![0, 1024] ⟨2, ![N, 1024]⟩)
    (ht : (⟨2, ![N, 1024]⟩ : Shape).Transposes [1, 0] ⟨2, ![1024, N]⟩)
    (hbc : (⟨2, ![1, N]⟩ : Shape).Broadcasts ⟨2, ![M, N]⟩) :
    addf (addf
        (matmul d prec (truncf .bf16 a hb₁)
          (transpose ⟨2, ![1024, N]⟩ [1, 0] (truncf .bf16 (extractStridedSlice ⟨2, ![N, 1024]⟩ ![0, 0] w hs₀) hb₂) ht)
          (constant ⟨2, ![M, N]⟩ .f32 0x00000000#32))
        (matmul d prec (truncf .bf16 b hb₃)
          (transpose ⟨2, ![1024, N]⟩ [1, 0] (truncf .bf16 (extractStridedSlice ⟨2, ![N, 1024]⟩ ![0, 1024] w hs₁) hb₄) ht)
          (constant ⟨2, ![M, N]⟩ .f32 0x00000000#32)))
      (broadcastTo ⟨2, ![M, N]⟩ bias hbc) = affineSplit a b w bias := by
  rw [matmul_trunc_transpose d hlc hrc hln hrn hlb hrb, matmul_trunc_transpose d hlc hrc hln hrn hlb hrb]
  funext i
  obtain ⟨r, c, rfl⟩ : ∃ (r : Fin M) (c : Fin N), i = ix2 r c := ⟨i 0, i 1, eq_ix2 i⟩
  rw [addf_apply, addf_apply, broadcastTo_1b_ab_apply, mulT_apply, mulT_apply, affineSplit_apply]
  simp only [slice_lo_apply, slice_hi_apply]

/-- The device's logistic is the logistic of every entry. -/
theorem dev_logistic {s : Shape} (y : FVec Ideal s .f32) : logistic y = sigmoid y := rfl

end Cert.Nnue

end
-- ==== Proof.KernelPay.lean ====
/-
  The kernel body's arithmetic on one block of 512 rows is the network of Layers at M = 512: the value the body
  stores to its second output is the raw score of the block's rows, the value it stores to its first output the
  logistic of that.
-/
import proofs.«133182_j67053029425688_1_alg».proof.Proof.Gen.KernelIdeal.Skeleton
import proofs.«133182_j67053029425688_1_alg».proof.Proof.DeviceForms

noncomputable section

namespace Cert.KernelIdeal.Body

open Cert.KernelIdeal Cert.KernelIdeal.Gen Idealize.ShloMosaic Idealize.ShloMosaic.ValueIdx Cert.Lib Cert.Nnue

/-- The feature transformer on the white block: x · ftwᵀ + ftb. -/
theorem pay2_eq (x0 : Vec Ideal S512x768 .f32) (x3 : Vec Ideal S1024x768 .f32) (x4 : Vec Ideal S1024 .f32) :
    k0_pay2 x0 x3 x4 = affine x0 x3 (rowOf x4) := by
  unfold k0_pay2 k0_pay1
  dsimp only
  rw [addf_matmul_bias dot_S512x768_S768x1024_S512x1024_1_0_0_1_n_n rfl rfl rfl rfl rfl rfl, shapeCast_rowOf]

/-- The same layer on the black block. -/
theorem pay3_eq (x1 : Vec Ideal S512x768 .f32) (x3 : Vec Ideal S1024x768 .f32) (x4 : Vec Ideal S1024 .f32) :
    k0_pay3 x1 x3 x4 = affine x1 x3 (rowOf x4) := by
  unfold k0_pay3 k0_pay1
  dsimp only
  rw [addf_matmul_bias dot_S512x768_S768x1024_S512x1024_1_0_0_1_n_n rfl rfl rfl rfl rfl rfl, shapeCast_rowOf]

/-- The first clamped mix, narrowed: s · W + (1 − s) · B. -/
theorem pay4_eq (x0 x1 : Vec Ideal S512x768 .f32) (x3 : Vec Ideal S1024x768 .f32) (x4 : Vec Ideal S1024 .f32)
    (x2 : Vec Ideal S512x1 .f32) :
    k0_pay4 x0 x1 x3 x4 x2
      = truncf .bf16 (clip01 (mix x2 (affine x0 x3 (rowOf x4)) (affine x1 x3 (rowOf x4)))) bitsLt_bf16_f32 := by
  unfold k0_pay4
  dsimp only
  rw [pay2_eq, pay3_eq, dev_mix, dev_clip]

/-- The second clamped mix, narrowed: s · B + (1 − s) · W. -/
theorem pay5_eq (x0 x1 : Vec Ideal S512x768 .f32) (x3 : Vec Ideal S1024x768 .f32) (x4 : Vec Ideal S1024 .f32)
    (x2 : Vec Ideal S512x1 .f32) :
    k0_pay5 x0 x1 x3 x4 x2
      = truncf .bf16 (clip01 (mix x2 (affine x1 x3 (rowOf x4)) (affine x0 x3 (rowOf x4)))) bitsLt_bf16_f32 := by
  unfold k0_pay5
  dsimp only
  rw [pay2_eq, pay3_eq, dev_mix, dev_clip]

/-- The three layers after the mixes, over any two narrowed 1024-wide inputs. -/
theorem pay6_eq (a b : FVec Ideal S512x1024 .f32) (x5 : Vec Ideal S8x2048 .f32) (x6 : Vec Ideal S8 .f32)
    (x7 : Vec Ideal S32x8 .f32) (x8 : Vec Ideal S32 .f32) (x9 : Vec Ideal S1x32 .f32) (x10 : Vec Ideal S1 .f32) :
    k0_pay6 (truncf .bf16 a bitsLt_bf16_f32) (truncf .bf16 b bitsLt_bf16_f32) x5 x6 x7 x8 x9 x10
      = affine (clip01 (affine (clip01 (affineSplit a b x5 (rowOf x6))) x7 (rowOf x8))) x9 (rowOf x10) := by
  unfold k0_pay6
  dsimp only
  rw [dev_affineSplit dot_S512x1024_S1024x8_S512x8_1_0_0_1_n_n rfl rfl rfl rfl rfl rfl, dev_clip,
    addf_matmul_bias dot_S512x8_S8x32_S512x32_1_0_0_1_n_n rfl rfl rfl rfl rfl rfl, dev_clip,
    addf_matmul_bias dot_S512x32_S32x1_S512x1_1_0_0_1_n_n rfl rfl rfl rfl rfl rfl]
  rw [shapeCast_rowOf, shapeCast_rowOf, shapeCast_rowOf]

/-- What the body stores to the raw-score output: the network's raw score of the block's rows. -/
theorem raw_pay (x0 x1 : Vec Ideal S512x768 .f32) (x2 : Vec Ideal S512x1 .f32) (x3 : Vec Ideal S1024x768 .f32)
    (x4 : Vec Ideal S1024 .f32) (x5 : Vec Ideal S8x2048 .f32) (x6 : Vec Ideal S8 .f32) (x7 : Vec Ideal S32x8 .f32)
    (x8 : Vec Ideal S32 .f32) (x9 : Vec Ideal S1x32 .f32) (x10 : Vec Ideal S1 .f32) :
    k0_pay6 (k0_pay4 x0 x1 x3 x4 x2) (k0_pay5 x0 x1 x3 x4 x2) x5 x6 x7 x8 x9 x10
      = raw x0 x1 x2 x3 x4 x5 x6 x7 x8 x9 x10 := by
  rw [pay4_eq, pay5_eq, pay6_eq]
  rfl

/-- What the body stores to the first output: the logistic of the raw score. -/
theorem out_pay (x0 x1 : Vec Ideal S512x768 .f32) (x2 : Vec Ideal S512x1 .f32) (x3 : Vec Ideal S1024x768 .f32)
    (x4 : Vec Ideal S1024 .f32) (x5 : Vec Ideal S8x2048 .f32) (x6 : Vec Ideal S8 .f32) (x7 : Vec Ideal S32x8 .f32)
    (x8 : Vec Ideal S32 .f32) (x9 : Vec Ideal S1x32 .f32) (x10 : Vec Ideal S1 .f32) :
    k0_pay7 (k0_pay4 x0 x1 x3 x4 x2) (k0_pay5 x0 x1 x3 x4 x2) x5 x6 x7 x8 x9 x10
      = sigmoid (raw x0 x1 x2 x3 x4 x5 x6 x7 x8 x9 x10) := by
  unfold k0_pay7
  dsimp only
  rw [raw_pay]
  rfl

end Cert.KernelIdeal.Body

end
-- ==== Proof.KernelWhole.lean ====
/-
  The kernel's two result arrays after its run, as whole-array functions of the argument arrays.

  The grid has 128 points; point t works on rows 512 t … 512 t + 511: its blocks of the white features, the black
  features and the side-to-move column are those rows of the arrays, and its blocks of the eight weight and bias
  arrays are the whole arrays. The network acts row by row, so the raw score the body computes for row p of its block
  is the raw score of row 512 t + p of the whole arrays. Point t writes its 512 scores back to rows 512 t … of each
  result; the 128 blocks tile the 65536 rows, so each result array ends holding the whole-array function.
-/
import proofs.«133182_j67053029425688_1_alg».proof.Proof.Gen.KernelIdeal.Value
import proofs.«133182_j67053029425688_1_alg».proof.Proof.KernelPay

set_option maxRecDepth 16384

noncomputable section

namespace Cert.KernelIdeal.Whole

open Cert.KernelIdeal Cert.KernelIdeal.Gen Cert.KernelIdeal.Value Cert.KernelIdeal.Body
open Idealize.ShloMosaic Idealize.ShloMosaic.TcCoe Idealize.SL.Sem Idealize.ShloMosaic.ValueIdx Cert.Lib Cert.Nnue
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-! ## The body's two stored values over any blocks -/

theorem out12_eq (x0 x1 : Vec Ideal S512x768 .f32) (x2 : Vec Ideal S512x1 .f32) (x3 : Vec Ideal S1024x768 .f32)
    (x4 : Vec Ideal S1024 .f32) (x5 : Vec Ideal S8x2048 .f32) (x6 : Vec Ideal S8 .f32) (x7 : Vec Ideal S32x8 .f32)
    (x8 : Vec Ideal S32 .f32) (x9 : Vec Ideal S1x32 .f32) (x10 : Vec Ideal S1 .f32) :
    out0_12 x0 x1 x2 x3 x4 x5 x6 x7 x8 x9 x10 = raw x0 x1 x2 x3 x4 x5 x6 x7 x8 x9 x10 := by
  unfold out0_12
  rw [View.canon_unit_zero hz2]
  simp only [View.ld_unit_zero (S := S512x768) hz2, View.ld_unit_zero (S := S1024x768) hz2, View.ld_unit_zero (S := S1024) hz1,
    View.ld_unit_zero (S := S512x1) hz2, View.ld_unit_zero (S := S8x2048) hz2, View.ld_unit_zero (S := S8) hz1,
    View.ld_unit_zero (S := S32x8) hz2, View.ld_unit_zero (S := S32) hz1, View.ld_unit_zero (S := S1x32) hz2,
    View.ld_unit_zero (S := S1) hz1]
  exact raw_pay x0 x1 x2 x3 x4 x5 x6 x7 x8 x9 x10

theorem out11_eq (x0 x1 : Vec Ideal S512x768 .f32) (x2 : Vec Ideal S512x1 .f32) (x3 : Vec Ideal S1024x768 .f32)
    (x4 : Vec Ideal S1024 .f32) (x5 : Vec Ideal S8x2048 .f32) (x6 : Vec Ideal S8 .f32) (x7 : Vec Ideal S32x8 .f32)
    (x8 : Vec Ideal S32 .f32) (x9 : Vec Ideal S1x32 .f32) (x10 : Vec Ideal S1 .f32) :
    out0_11 x0 x1 x2 x3 x4 x5 x6 x7 x8 x9 x10 = sigmoid (raw x0 x1 x2 x3 x4 x5 x6 x7 x8 x9 x10) := by
  unfold out0_11
  rw [View.canon_unit_zero hz2]
  simp only [View.ld_unit_zero (S := S512x768) hz2, View.ld_unit_zero (S := S1024x768) hz2, View.ld_unit_zero (S := S1024) hz1,
    View.ld_unit_zero (S := S512x1) hz2, View.ld_unit_zero (S := S8x2048) hz2, View.ld_unit_zero (S := S8) hz1,
    View.ld_unit_zero (S := S32x8) hz2, View.ld_unit_zero (S := S32) hz1, View.ld_unit_zero (S := S1x32) hz2,
    View.ld_unit_zero (S := S1) hz1]
  exact out_pay x0 x1 x2 x3 x4 x5 x6 x7 x8 x9 x10

/-! ## The argument arrays and the blocks of a point, at their literal types -/

abbrev A0 (c : Dev nD) : Vec Ideal S65536x768 .f32 := V m c main_arg0
abbrev A1 (c : Dev nD) : Vec Ideal S65536x768 .f32 := V m c main_arg1
abbrev A2 (c : Dev nD) : Vec Ideal S65536x1 .f32 := V m c main_arg2
abbrev A3 (c : Dev nD) : Vec Ideal S1024x768 .f32 := V m c main_arg3
abbrev A4 (c : Dev nD) : Vec Ideal S1024 .f32 := V m c main_arg4
abbrev A5 (c : Dev nD) : Vec Ideal S8x2048 .f32 := V m c main_arg5
abbrev A6 (c : Dev nD) : Vec Ideal S8 .f32 := V m c main_arg6
abbrev A7 (c : Dev nD) : Vec Ideal S32x8 .f32 := V m c main_arg7
abbrev A8 (c : Dev nD) : Vec Ideal S32 .f32 := V m c main_arg8
abbrev A9 (c : Dev nD) : Vec Ideal S1x32 .f32 := V m c main_arg9
abbrev A10 (c : Dev nD) : Vec Ideal S1 .f32 := V m c main_arg10

abbrev B0 (c : Dev nD) (t : Fin cfg0.N) : Vec Ideal S512x768 .f32 := iblk m c 0 t
abbrev B1 (c : Dev nD) (t : Fin cfg0.N) : Vec Ideal S512x768 .f32 := iblk m c 1 t
abbrev B2 (c : Dev nD) (t : Fin cfg0.N) : Vec Ideal S512x1 .f32 := iblk m c 2 t
abbrev B3 (c : Dev nD) (t : Fin cfg0.N) : Vec Ideal S1024x768 .f32 := iblk m c 3 t
abbrev B4 (c : Dev nD) (t : Fin cfg0.N) : Vec Ideal S1024 .f32 := iblk m c 4 t
abbrev B5 (c : Dev nD) (t : Fin cfg0.N) : Vec Ideal S8x2048 .f32 := iblk m c 5 t
abbrev B6 (c : Dev nD) (t : Fin cfg0.N) : Vec Ideal S8 .f32 := iblk m c 6 t
abbrev B7 (c : Dev nD) (t : Fin cfg0.N) : Vec Ideal S32x8 .f32 := iblk m c 7 t
abbrev B8 (c : Dev nD) (t : Fin cfg0.N) : Vec Ideal S32 .f32 := iblk m c 8 t
abbrev B9 (c : Dev nD) (t : Fin cfg0.N) : Vec Ideal S1x32 .f32 := iblk m c 9 t
abbrev B10 (c : Dev nD) (t : Fin cfg0.N) : Vec Ideal S1 .f32 := iblk m c 10 t

/-- The raw score of every row of the argument arrays. -/
def rawAll (c : Dev nD) : Vec Ideal S65536x1 .f32 :=
  raw (A0 m c) (A1 m c) (A2 m c) (A3 m c) (A4 m c) (A5 m c) (A6 m c) (A7 m c) (A8 m c) (A9 m c) (A10 m c)

/-! ## The index maps over the grid -/

/-- The three per-row windows and the two results move one block of rows per point; the eight weight and bias windows
    stay at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_11.index t (0 : Fin 2) = t.val ∧ win0_11.index t (1 : Fin 2) = 0
    ∧ win0_12.index t (0 : Fin 2) = t.val ∧ win0_12.index t (1 : Fin 2) = 0 :=
  (by decide +kernel : ∀ t : Fin grid0.N, _)

theorem idx_fixed : ∀ t : Fin cfg0.N,
    win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0 :=
  (by decide +kernel : ∀ t : Fin grid0.N, _)

theorem row_lt (t : Fin cfg0.N) (p : Fin 512) : t.val * 512 + p.val < 65536 := by
  have ht : t.val < grid0.N := t.isLt
  rw [N_0] at ht
  have := p.isLt
  omega

/-! ## The blocks read off the arrays -/

theorem B0_apply (c : Dev nD) (t : Fin cfg0.N) (p : Fin 512) (k : Fin 768) :
    B0 m c t (ix2 p k) = A0 m c (ix2 ⟨t.val * 512 + p.val, row_lt t p⟩ k) := by
  show V m c main_arg0 (((cfg0.win 0).blk t).view.emb (ix2 p k)) = V m c main_arg0 (ix2 ⟨t.val * 512 + p.val, row_lt t p⟩ k)
  refine congrArg (V m c main_arg0) (funext fun a => Fin.ext ?_)
  obtain ⟨e0, e1, -⟩ := idx_facts t
  match a with
  | ⟨0, _⟩ => show win0_0.index t (0 : Fin 2) * 512 + 1 * p.val = t.val * 512 + p.val; rw [e0]; omega
  | ⟨1, _⟩ => show win0_0.index t (1 : Fin 2) * 768 + 1 * k.val = k.val; rw [e1]; omega

theorem B1_apply (c : Dev nD) (t : Fin cfg0.N) (p : Fin 512) (k : Fin 768) :
    B1 m c t (ix2 p k) = A1 m c (ix2 ⟨t.val * 512 + p.val, row_lt t p⟩ k) := by
  show V m c main_arg1 (((cfg0.win 1).blk t).view.emb (ix2 p k)) = V m c main_arg1 (ix2 ⟨t.val * 512 + p.val, row_lt t p⟩ k)
  refine congrArg (V m c main_arg1) (funext fun a => Fin.ext ?_)
  obtain ⟨-, -, e0, e1, -⟩ := idx_facts t
  match a with
  | ⟨0, _⟩ => show win0_1.index t (0 : Fin 2) * 512 + 1 * p.val = t.val * 512 + p.val; rw [e0]; omega
  | ⟨1, _⟩ => show win0_1.index t (1 : Fin 2) * 768 + 1 * k.val = k.val; rw [e1]; omega

theorem B2_apply (c : Dev nD) (t : Fin cfg0.N) (p : Fin 512) (u : Fin 1) :
    B2 m c t (ix2 p u) = A2 m c (ix2 ⟨t.val * 512 + p.val, row_lt t p⟩ u) := by
  show V m c main_arg2 (((cfg0.win 2).blk t).view.emb (ix2 p u)) = V m c main_arg2 (ix2 ⟨t.val * 512 + p.val, row_lt t p⟩ u)
  refine congrArg (V m c main_arg2) (funext fun a => Fin.ext ?_)
  obtain ⟨-, -, -, -, e0, e1, -⟩ := idx_facts t
  match a with
  | ⟨0, _⟩ => show win0_2.index t (0 : Fin 2) * 512 + 1 * p.val = t.val * 512 + p.val; rw [e0]; omega
  | ⟨1, _⟩ => show win0_2.index t (1 : Fin 2) * 1 + 1 * u.val = u.val; rw [e1]; omega

theorem B3_eq (c : Dev nD) (t : Fin cfg0.N) : B3 m c t = A3 m c := by
  funext y
  show V m c main_arg3 (((cfg0.win 3).blk t).view.emb y) = V m c main_arg3 y
  refine congrArg (V m c main_arg3) (funext fun a => Fin.ext ?_)
  obtain ⟨e0, e1, -⟩ := idx_fixed t
  match a with
  | ⟨0, _⟩ => show win0_3.index t (0 : Fin 2) * 1024 + 1 * (y 0).val = (y 0).val; rw [e0]; omega
  | ⟨1, _⟩ => show win0_3.index t (1 : Fin 2) * 768 + 1 * (y 1).val = (y 1).val; rw [e1]; omega

theorem B4_eq (c : Dev nD) (t : Fin cfg0.N) : B4 m c t = A4 m c := by
  funext y
  show V m c main_arg4 (((cfg0.win 4).blk t).view.emb y) = V m c main_arg4 y
  refine congrArg (V m c main_arg4) (funext fun a => Fin.ext ?_)
  obtain ⟨-, -, e0, -⟩ := idx_fixed t
  match a with
  | ⟨0, _⟩ => show win0_4.index t (0 : Fin 1) * 1024 + 1 * (y 0).val = (y 0).val; rw [e0]; omega

theorem B5_eq (c : Dev nD) (t : Fin cfg0.N) : B5 m c t = A5 m c := by
  funext y
  show V m c main_arg5 (((cfg0.win 5).blk t).view.emb y) = V m c main_arg5 y
  refine congrArg (V m c main_arg5) (funext fun a => Fin.ext ?_)
  obtain ⟨-, -, -, e0, e1, -⟩ := idx_fixed t
  match a with
  | ⟨0, _⟩ => show win0_5.index t (0 : Fin 2) * 8 + 1 * (y 0).val = (y 0).val; rw [e0]; omega
  | ⟨1, _⟩ => show win0_5.index t (1 : Fin 2) * 2048 + 1 * (y 1).val = (y 1).val; rw [e1]; omega

theorem B6_eq (c : Dev nD) (t : Fin cfg0.N) : B6 m c t = A6 m c := by
  funext y
  show V m c main_arg6 (((cfg0.win 6).blk t).view.emb y) = V m c main_arg6 y
  refine congrArg (V m c main_arg6) (funext fun a => Fin.ext ?_)
  obtain ⟨-, -, -, -, -, e0, -⟩ := idx_fixed t
  match a with
  | ⟨0, _⟩ => show win0_6.index t (0 : Fin 1) * 8 + 1 * (y 0).val = (y 0).val; rw [e0]; omega

theorem B7_eq (c : Dev nD) (t : Fin cfg0.N) : B7 m c t = A7 m c := by
  funext y
  show V m c main_arg7 (((cfg0.win 7).blk t).view.emb y) = V m c main_arg7 y
  refine congrArg (V m c main_arg7) (funext fun a => Fin.ext ?_)
  obtain ⟨-, -, -, -, -, -, e0, e1, -⟩ := idx_fixed t
  match a with
  | ⟨0, _⟩ => show win0_7.index t (0 : Fin 2) * 32 + 1 * (y 0).val = (y 0).val; rw [e0]; omega
  | ⟨1, _⟩ => show win0_7.index t (1 : Fin 2) * 8 + 1 * (y 1).val = (y 1).val; rw [e1]; omega

theorem B8_eq (c : Dev nD) (t : Fin cfg0.N) : B8 m c t = A8 m c := by
  funext y
  show V m c main_arg8 (((cfg0.win 8).blk t).view.emb y) = V m c main_arg8 y
  refine congrArg (V m c main_arg8) (funext fun a => Fin.ext ?_)
  obtain ⟨-, -, -, -, -, -, -, -, e0, -⟩ := idx_fixed t
  match a with
  | ⟨0, _⟩ => show win0_8.index t (0 : Fin 1) * 32 + 1 * (y 0).val = (y 0).val; rw [e0]; omega

theorem B9_eq (c : Dev nD) (t : Fin cfg0.N) : B9 m c t = A9 m c := by
  funext y
  show V m c main_arg9 (((cfg0.win 9).blk t).view.emb y) = V m c main_arg9 y
  refine congrArg (V m c main_arg9) (funext fun a => Fin.ext ?_)
  obtain ⟨-, -, -, -, -, -, -, -, -, e0, e1, -⟩ := idx_fixed t
  match a with
  | ⟨0, _⟩ => show win0_9.index t (0 : Fin 2) * 1 + 1 * (y 0).val = (y 0).val; rw [e0]; omega
  | ⟨1, _⟩ => show win0_9.index t (1 : Fin 2) * 32 + 1 * (y 1).val = (y 1).val; rw [e1]; omega

theorem B10_eq (c : Dev nD) (t : Fin cfg0.N) : B10 m c t = A10 m c := by
  funext y
  show V m c main_arg10 (((cfg0.win 10).blk t).view.emb y) = V m c main_arg10 y
  refine congrArg (V m c main_arg10) (funext fun a => Fin.ext ?_)
  obtain ⟨-, -, -, -, -, -, -, -, -, -, -, e0⟩ := idx_fixed t
  match a with
  | ⟨0, _⟩ => show win0_10.index t (0 : Fin 1) * 1 + 1 * (y 0).val = (y 0).val; rw [e0]; omega

/-- The raw score of row p of point t's blocks is the raw score of row 512 t + p of the arrays. -/
theorem raw_blk (c : Dev nD) (t : Fin cfg0.N) (p : Fin 512) (u : Fin 1) :
    raw (B0 m c t) (B1 m c t) (B2 m c t) (B3 m c t) (B4 m c t) (B5 m c t) (B6 m c t) (B7 m c t) (B8 m c t) (B9 m c t)
        (B10 m c t) (ix2 p u)
      = rawAll m c (ix2 ⟨t.val * 512 + p.val, row_lt t p⟩ u) := by
  rw [B3_eq, B4_eq, B5_eq, B6_eq, B7_eq, B8_eq, B9_eq, B10_eq]
  exact raw_row_congr (B0 m c t) (B1 m c t) (B2 m c t) (A0 m c) (A1 m c) (A2 m c) (A3 m c) (A4 m c) (A5 m c) (A6 m c)
    (A7 m c) (A8 m c) (A9 m c) (A10 m c) p ⟨t.val * 512 + p.val, row_lt t p⟩ (fun k => B0_apply m c t p k)
    (fun k => B1_apply m c t p k) (B2_apply m c t p 0) u

/-! ## What each point writes back, and the arrays after the run -/

/-- Where row p of point t's result block lies in the result arrays. -/
theorem emb12 (t : Fin cfg0.N) (p : Fin 512) (u : Fin 1) :
    ((cfg0.win 12).blk t).view.emb (ix2 p u) = ix2 ⟨t.val * 512 + p.val, row_lt t p⟩ u := by
  funext a
  apply Fin.ext
  obtain ⟨-, -, -, -, -, -, -, -, e0, e1⟩ := idx_facts t
  match a with
  | ⟨0, _⟩ => show win0_12.index t (0 : Fin 2) * 512 + 1 * p.val = t.val * 512 + p.val; rw [e0]; omega
  | ⟨1, _⟩ => show win0_12.index t (1 : Fin 2) * 1 + 1 * u.val = u.val; rw [e1]; omega

theorem emb11 (t : Fin cfg0.N) (p : Fin 512) (u : Fin 1) :
    ((cfg0.win 11).blk t).view.emb (ix2 p u) = ix2 ⟨t.val * 512 + p.val, row_lt t p⟩ u := by
  funext a
  apply Fin.ext
  obtain ⟨-, -, -, -, -, -, e0, e1, -⟩ := idx_facts t
  match a with
  | ⟨0, _⟩ => show win0_11.index t (0 : Fin 2) * 512 + 1 * p.val = t.val * 512 + p.val; rw [e0]; omega
  | ⟨1, _⟩ => show win0_11.index t (1 : Fin 2) * 1 + 1 * u.val = u.val; rw [e1]; omega

/-- Point t writes block t of the whole-array raw score to the second result. -/
theorem flushed12_eq (c : Dev nD) (t : Fin cfg0.N) :
    (dats m 0 c).flushed 12 t = ((cfg0.win 12).blk t).view.read (Elt Ideal) (rawAll m c) := by
  rw [Value.flushed12]
  funext j
  obtain ⟨p, u, rfl⟩ : ∃ (p : Fin 512) (u : Fin 1), j = ix2 p u := ⟨j 0, j 1, eq_ix2 j⟩
  show out0_12 (B0 m c t) (B1 m c t) (B2 m c t) (B3 m c t) (B4 m c t) (B5 m c t) (B6 m c t) (B7 m c t) (B8 m c t)
      (B9 m c t) (B10 m c t) (ix2 p u) = rawAll m c (((cfg0.win 12).blk t).view.emb (ix2 p u))
  rw [emb12]
  exact (congrFun (out12_eq (B0 m c t) (B1 m c t) (B2 m c t) (B3 m c t) (B4 m c t) (B5 m c t) (B6 m c t) (B7 m c t)
    (B8 m c t) (B9 m c t) (B10 m c t)) (ix2 p u)).trans (raw_blk m c t p u)

/-- Point t writes block t of the logistic of the whole-array raw score to the first result. -/
theorem flushed11_eq (c : Dev nD) (t : Fin cfg0.N) :
    (dats m 0 c).flushed 11 t = ((cfg0.win 11).blk t).view.read (Elt Ideal) (sigmoid (rawAll m c)) := by
  rw [Value.flushed11]
  funext j
  obtain ⟨p, u, rfl⟩ : ∃ (p : Fin 512) (u : Fin 1), j = ix2 p u := ⟨j 0, j 1, eq_ix2 j⟩
  show out0_11 (B0 m c t) (B1 m c t) (B2 m c t) (B3 m c t) (B4 m c t) (B5 m c t) (B6 m c t) (B7 m c t) (B8 m c t)
      (B9 m c t) (B10 m c t) (ix2 p u) = sigmoid (rawAll m c) (((cfg0.win 11).blk t).view.emb (ix2 p u))
  rw [emb11]
  exact (congrFun (out11_eq (B0 m c t) (B1 m c t) (B2 m c t) (B3 m c t) (B4 m c t) (B5 m c t) (B6 m c t) (B7 m c t)
    (B8 m c t) (B9 m c t) (B10 m c t)) (ix2 p u)).trans (congrArg Ideal.logistic (raw_blk m c t p u))

theorem mem_blk12 (t : Fin cfg0.N) (i : S65536x1.Idx) :
    i ∈ ((cfg0.win 12).blk t).view.set ↔ ∀ a : Fin 2, win0_12.index t a * S512x1.size a ≤ (i a).val
      ∧ (i a).val < win0_12.index t a * S512x1.size a + S512x1.size a := by
  show i ∈ ((View.whole main_v0_1).slice (win0_12.rect t)).set ↔ _
  rw [View.set_slice_whole, Rect.mem_set_unit]
  exact Iff.rfl

theorem mem_blk11 (t : Fin cfg0.N) (i : S65536x1.Idx) :
    i ∈ ((cfg0.win 11).blk t).view.set ↔ ∀ a : Fin 2, win0_11.index t a * S512x1.size a ≤ (i a).val
      ∧ (i a).val < win0_11.index t a * S512x1.size a + S512x1.size a := by
  show i ∈ ((View.whole main_v0_0).slice (win0_11.rect t)).set ↔ _
  rw [View.set_slice_whole, Rect.mem_set_unit]
  exact Iff.rfl

theorem pt_lt (i : S65536x1.Idx) : (i 0).val / 512 < cfg0.N := by
  have hi0 : (i 0).val < 65536 := (i 0).isLt
  show (i 0).val / 512 < grid0.N
  rw [N_0]
  omega

/-- Row i lies in the block of point i / 512. -/
theorem cover12 (i : S65536x1.Idx) :
    ∃ t : Fin cfg0.N, (cfg0.win 12).flush t = true ∧ i ∈ ((cfg0.win 12).blk t).view.set := by
  have hi0 : (i 0).val < 65536 := (i 0).isLt
  have hi1 : (i 1).val < 1 := (i 1).isLt
  refine ⟨⟨(i 0).val / 512, pt_lt i⟩, flush0_12 _, ?_⟩
  rw [mem_blk12]
  obtain ⟨-, -, -, -, -, -, -, -, e0, e1⟩ := idx_facts ⟨(i 0).val / 512, pt_lt i⟩
  have e0' : win0_12.index ⟨(i 0).val / 512, pt_lt i⟩ (0 : Fin 2) = (i 0).val / 512 := e0
  intro a
  match a with
  | ⟨0, _⟩ =>
    show win0_12.index ⟨(i 0).val / 512, pt_lt i⟩ (0 : Fin 2) * 512 ≤ (i 0).val
      ∧ (i 0).val < win0_12.index ⟨(i 0).val / 512, pt_lt i⟩ (0 : Fin 2) * 512 + 512
    rw [e0']; omega
  | ⟨1, _⟩ =>
    show win0_12.index ⟨(i 0).val / 512, pt_lt i⟩ (1 : Fin 2) * 1 ≤ (i 1).val
      ∧ (i 1).val < win0_12.index ⟨(i 0).val / 512, pt_lt i⟩ (1 : Fin 2) * 1 + 1
    rw [e1]; omega

theorem cover11 (i : S65536x1.Idx) :
    ∃ t : Fin cfg0.N, (cfg0.win 11).flush t = true ∧ i ∈ ((cfg0.win 11).blk t).view.set := by
  have hi0 : (i 0).val < 65536 := (i 0).isLt
  have hi1 : (i 1).val < 1 := (i 1).isLt
  refine ⟨⟨(i 0).val / 512, pt_lt i⟩, flush0_11 _, ?_⟩
  rw [mem_blk11]
  obtain ⟨-, -, -, -, -, -, e0, e1, -⟩ := idx_facts ⟨(i 0).val / 512, pt_lt i⟩
  have e0' : win0_11.index ⟨(i 0).val / 512, pt_lt i⟩ (0 : Fin 2) = (i 0).val / 512 := e0
  intro a
  match a with
  | ⟨0, _⟩ =>
    show win0_11.index ⟨(i 0).val / 512, pt_lt i⟩ (0 : Fin 2) * 512 ≤ (i 0).val
      ∧ (i 0).val < win0_11.index ⟨(i 0).val / 512, pt_lt i⟩ (0 : Fin 2) * 512 + 512
    rw [e0']; omega
  | ⟨1, _⟩ =>
    show win0_11.index ⟨(i 0).val / 512, pt_lt i⟩ (1 : Fin 2) * 1 ≤ (i 1).val
      ∧ (i 1).val < win0_11.index ⟨(i 0).val / 512, pt_lt i⟩ (1 : Fin 2) * 1 + 1
    rw [e1]; omega

/-- The second result array after the run: the raw score of every row. -/
theorem final12 (c : Dev nD) : (dats m 0 c).arrAt 12 cfg0.N = rawAll m c :=
  (dats m 0 c).arrAt_eq_of_cover 12 (rawAll m c) (fun t _ => flushed12_eq m c t) cover12

/-- The first result array after the run: the logistic of the raw score of every row. -/
theorem final11 (c : Dev nD) : (dats m 0 c).arrAt 11 cfg0.N = sigmoid (rawAll m c) :=
  (dats m 0 c).arrAt_eq_of_cover 11 (sigmoid (rawAll m c)) (fun t _ => flushed11_eq m c t) cover11

/-- The kernel's run with both result arrays named as functions of the argument arrays. -/
theorem run : θ_run defs (onTc (τ := τ) (main (F := Ideal))) ⟨m, fun _ => 0, ρ⟩ fun r => ∀ c : Dev nD,
      r.2.mem ((c : Thread nD τ).loc main_v0_0) = sigmoid (rawAll m c)
      ∧ r.2.mem ((c : Thread nD τ).loc main_v0_1) = rawAll m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final11 m c), (h c).2.1.trans (final12 m c), (h c).2.2⟩)
    (Value.run_blocks m ρ)

end Cert.KernelIdeal.Whole

end
-- ==== Proof.HostForms.lean ====
/-
  The host's spellings of the layers: each is the whole-array function of Layers, for any number of rows.
  The host clamps against scalars broadcast to the array, lays a per-row weight along the columns, and joins the two
  mixes side by side into one 2048-wide array before the split layer; entry (r, k) of the joined array is entry (r, k)
  of the first piece for k below 1024 and entry (r, k − 1024) of the second piece from there on.
-/
import proofs.«133182_j67053029425688_1_alg».proof.Proof.Layers

noncomputable section

namespace Cert.Nnue

open Idealize.ShloMosaic Idealize.ShloMosaic.ValueIdx Cert.Lib

variable {M N : Nat}

/-- min 1 (max 0 y), the bounds scalars broadcast to the array's shape. -/
theorem host_clip {s : Shape} (y : FVec Ideal s .f32) (h : (⟨0, ![]⟩ : Shape).BroadcastsInDim s ![]) :
    minimumf (broadcastInDim s ![] h (id (constant (F := Ideal) ⟨0, ![]⟩ .f32 0x3F800000#32)))
      (maximumf (broadcastInDim s ![] h (id (constant (F := Ideal) ⟨0, ![]⟩ .f32 0x00000000#32))) y) = clip01 y := by
  funext i
  rfl

/-- An [M, 1] column laid along the columns of an [M, N] array reads, at (r, c), the column's entry of row r. -/
theorem bcastCol_apply {α : Type} (s : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h s (ix2 r c) = s (ix2 r (0 : Fin 1)) :=
  broadcastInDim_apply ![0, 1] h s (ix2 r c) (ix2 r (0 : Fin 1)) fun a => match a with
    | ⟨0, _⟩ => by
      show r.val = if M = 1 then 0 else r.val
      split
      · have := r.isLt; omega
      · rfl
    | ⟨1, _⟩ => rfl

/-- Two [M, 1024] arrays joined along the columns: the first 1024 columns are the first piece's. -/
theorem cat_lo_apply (A B : FVec Ideal ⟨2, ![M, 1024]⟩ .f32)
    (h : Shape.Concatenates [⟨2, ![M, 1024]⟩, ⟨2, ![M, 1024]⟩] ⟨2, ![M, 2048]⟩ 1) (r : Fin M) (k : Fin 1024) :
    concatenate ⟨2, ![M, 2048]⟩ 1 [⟨⟨2, ![M, 1024]⟩, A⟩, ⟨⟨2, ![M, 1024]⟩, B⟩] h (ix2 r (lo k)) = A (ix2 r k) :=
  concatenate_pair_apply_left 1 A B h (ix2 r (lo k)) rfl (ix2 r k) fun b => match b with
    | ⟨0, _⟩ => rfl
    | ⟨1, _⟩ => rfl

/-- The last 1024 columns are the second piece's. -/
theorem cat_hi_apply (A B : FVec Ideal ⟨2, ![M, 1024]⟩ .f32)
    (h : Shape.Concatenates [⟨2, ![M, 1024]⟩, ⟨2, ![M, 1024]⟩] ⟨2, ![M, 2048]⟩ 1) (r : Fin M) (k : Fin 1024) :
    concatenate ⟨2, ![M, 2048]⟩ 1 [⟨⟨2, ![M, 1024]⟩, A⟩, ⟨⟨2, ![M, 1024]⟩, B⟩] h (ix2 r (hi k)) = B (ix2 r k) :=
  concatenate_pair_apply_right 1 A B h (ix2 r (hi k)) rfl rfl (ix2 r k)
    (fun b hb => match b, hb with
      | ⟨0, _⟩, _ => rfl
      | ⟨1, _⟩, hb => absurd rfl hb)
    (by show k.val + 1024 = 1024 + k.val; omega)

/-- The host's mix over the joined arrays, in the first 1024 columns: s · W + (1 − s) · B. -/
theorem host_mix_lo (s : FVec Ideal ⟨2, ![M, 1]⟩ .f32) (W B : FVec Ideal ⟨2, ![M, 1024]⟩ .f32)
    (hc : Shape.Concatenates [⟨2, ![M, 1024]⟩, ⟨2, ![M, 1024]⟩] ⟨2, ![M, 2048]⟩ 1)
    (hb : (⟨2, ![M, 1]⟩ : Shape).BroadcastsInDim ⟨2, ![M, 2048]⟩ ![0, 1])
    (h0 : (⟨0, ![]⟩ : Shape).BroadcastsInDim ⟨2, ![M, 1]⟩ ![]) (r : Fin M) (k : Fin 1024) :
    addf (mulf (broadcastInDim ⟨2, ![M, 2048]⟩ ![0, 1] hb s)
          (concatenate ⟨2, ![M, 2048]⟩ 1 [⟨⟨2, ![M, 1024]⟩, W⟩, ⟨⟨2, ![M, 1024]⟩, B⟩] hc))
        (mulf (broadcastInDim ⟨2, ![M, 2048]⟩ ![0, 1] hb
            (subf (broadcastInDim ⟨2, ![M, 1]⟩ ![] h0 (constant (F := Ideal) ⟨0, ![]⟩ .f32 0x3F800000#32)) s))
          (concatenate ⟨2, ![M, 2048]⟩ 1 [⟨⟨2, ![M, 1024]⟩, B⟩, ⟨⟨2, ![M, 1024]⟩, W⟩] hc)) (ix2 r (lo k))
      = mix s W B (ix2 r k) := by
  show broadcastInDim ⟨2, ![M, 2048]⟩ ![0, 1] hb s (ix2 r (lo k))
        * concatenate ⟨2, ![M, 2048]⟩ 1 [⟨⟨2, ![M, 1024]⟩, W⟩, ⟨⟨2, ![M, 1024]⟩, B⟩] hc (ix2 r (lo k))
      + broadcastInDim ⟨2, ![M, 2048]⟩ ![0, 1] hb
          (subf (broadcastInDim ⟨2, ![M, 1]⟩ ![] h0 (constant (F := Ideal) ⟨0, ![]⟩ .f32 0x3F800000#32)) s) (ix2 r (lo k))
        * concatenate ⟨2, ![M, 2048]⟩ 1 [⟨⟨2, ![M, 1024]⟩, B⟩, ⟨⟨2, ![M, 1024]⟩, W⟩] hc (ix2 r (lo k)) = _
  rw [bcastCol_apply, bcastCol_apply, cat_lo_apply, cat_lo_apply]
  rfl

/-- In the last 1024 columns the pieces have changed places: s · B + (1 − s) · W. -/
theorem host_mix_hi (s : FVec Ideal ⟨2, ![M, 1]⟩ .f32) (W B : FVec Ideal ⟨2, ![M, 1024]⟩ .f32)
    (hc : Shape.Concatenates [⟨2, ![M, 1024]⟩, ⟨2, ![M, 1024]⟩] ⟨2, ![M, 2048]⟩ 1)
    (hb : (⟨2, ![M, 1]⟩ : Shape).BroadcastsInDim ⟨2, ![M, 2048]⟩ ![0, 1])
    (h0 : (⟨0, ![]⟩ : Shape).BroadcastsInDim ⟨2, ![M, 1]⟩ ![]) (r : Fin M) (k : Fin 1024) :
    addf (mulf (broadcastInDim ⟨2, ![M, 2048]⟩ ![0, 1] hb s)
          (concatenate ⟨2, ![M, 2048]⟩ 1 [⟨⟨2, ![M, 1024]⟩, W⟩, ⟨⟨2, ![M, 1024]⟩, B⟩] hc))
        (mulf (broadcastInDim ⟨2, ![M, 2048]⟩ ![0, 1] hb
            (subf (broadcastInDim ⟨2, ![M, 1]⟩ ![] h0 (constant (F := Ideal) ⟨0, ![]⟩ .f32 0x3F800000#32)) s))
          (concatenate ⟨2, ![M, 2048]⟩ 1 [⟨⟨2, ![M, 1024]⟩, B⟩, ⟨⟨2, ![M, 1024]⟩, W⟩] hc)) (ix2 r (hi k))
      = mix s B W (ix2 r k) := by
  show broadcastInDim ⟨2, ![M, 2048]⟩ ![0, 1] hb s (ix2 r (hi k))
        * concatenate ⟨2, ![M, 2048]⟩ 1 [⟨⟨2, ![M, 1024]⟩, W⟩, ⟨⟨2, ![M, 1024]⟩, B⟩] hc (ix2 r (hi k))
      + broadcastInDim ⟨2, ![M, 2048]⟩ ![0, 1] hb
          (subf (broadcastInDim ⟨2, ![M, 1]⟩ ![] h0 (constant (F := Ideal) ⟨0, ![]⟩ .f32 0x3F800000#32)) s) (ix2 r (hi k))
        * concatenate ⟨2, ![M, 2048]⟩ 1 [⟨⟨2, ![M, 1024]⟩, B⟩, ⟨⟨2, ![M, 1024]⟩, W⟩] hc (ix2 r (hi k)) = _
  rw [bcastCol_apply, bcastCol_apply, cat_hi_apply, cat_hi_apply]
  rfl

/-- The split layer on the host: ONE product of the 2048-wide input X against the transposed weight, plus the bias laid
    along the columns. If the first 1024 columns of X are a and the last 1024 are b, it is the split layer of a and b:
    the contraction over 2048 indices is the contraction over the first half plus the one over the second half. -/
theorem host_affineSplit (d : DotDims ⟨2, ![M, 2048]⟩ ⟨2, ![2048, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (X : FVec Ideal ⟨2, ![M, 2048]⟩ .f32) (a b : FVec Ideal ⟨2, ![M, 1024]⟩ .f32)
    (hlo : ∀ (r : Fin M) (k : Fin 1024), X (ix2 r (lo k)) = a (ix2 r k))
    (hhi : ∀ (r : Fin M) (k : Fin 1024), X (ix2 r (hi k)) = b (ix2 r k))
    (w : FVec Ideal ⟨2, ![N, 2048]⟩ .f32) (bias : FVec Ideal ⟨1, ![N]⟩ .f32)
    (ht : (⟨2, ![N, 2048]⟩ : Shape).Transposes [1, 0] ⟨2, ![2048, N]⟩)
    (h₁ : (⟨1, ![N]⟩ : Shape).BroadcastsInDim ⟨2, ![1, N]⟩ ![1])
    (h₂ : (⟨2, ![1, N]⟩ : Shape).BroadcastsInDim ⟨2, ![M, N]⟩ ![0, 1]) :
    addf (Host.dotGeneral d prec X (transpose ⟨2, ![2048, N]⟩ [1, 0] w ht))
        (broadcastInDim ⟨2, ![M, N]⟩ ![0, 1] h₂ (broadcastInDim ⟨2, ![1, N]⟩ ![1] h₁ bias))
      = affineSplit a b w (rowOf bias) := by
  rw [dotGeneral_transpose d hlc hrc hln hrn hlb hrb]
  funext i
  obtain ⟨r, c, rfl⟩ : ∃ (r : Fin M) (c : Fin N), i = ix2 r c := ⟨i 0, i 1, eq_ix2 i⟩
  rw [addf_apply, broadcastInDim_row_apply, mulT_apply, affineSplit_apply, sum_split]
  simp only [hlo, hhi]
  rfl

/-- A plain layer on the host, its bias the [N] vector as a row. -/
theorem host_affine {K : Nat} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (x : FVec Ideal ⟨2, ![M, K]⟩ .f32) (w : FVec Ideal ⟨2, ![N, K]⟩ .f32) (b : FVec Ideal ⟨1, ![N]⟩ .f32)
    (ht : (⟨2, ![N, K]⟩ : Shape).Transposes [1, 0] ⟨2, ![K, N]⟩)
    (h₁ : (⟨1, ![N]⟩ : Shape).BroadcastsInDim ⟨2, ![1, N]⟩ ![1])
    (h₂ : (⟨2, ![1, N]⟩ : Shape).BroadcastsInDim ⟨2, ![M, N]⟩ ![0, 1])
    (hc : (⟨1, ![N]⟩ : Shape).ShapeCasts ⟨2, ![1, N]⟩) :
    addf (Host.dotGeneral d prec x (transpose ⟨2, ![K, N]⟩ [1, 0] w ht))
        (broadcastInDim ⟨2, ![M, N]⟩ ![0, 1] h₂ (broadcastInDim ⟨2, ![1, N]⟩ ![1] h₁ b))
      = affine x w (rowOf b) := by
  rw [addf_dotGeneral_bias d hlc hrc hln hrn hlb hrb prec x w b ht h₁ h₂ hc, shapeCast_rowOf]

/-- The host's logistic, spelt 1 / (1 + exp (−y)) with the ones scalars broadcast to the array, is the logistic of
    every entry. -/
theorem host_logistic {s : Shape} (y : FVec Ideal s .f32) (h : (⟨0, ![]⟩ : Shape).BroadcastsInDim s ![]) :
    Host.divf (broadcastInDim s ![] h (constant (F := Ideal) ⟨0, ![]⟩ .f32 0x3F800000#32))
      (addf (broadcastInDim s ![] h (constant (F := Ideal) ⟨0, ![]⟩ .f32 0x3F800000#32)) (Host.exp (Host.negf y)))
      = sigmoid y := by
  funext i
  show Ideal.div (Ideal.ofBits .f32 0x3F800000#32) (Ideal.ofBits .f32 0x3F800000#32 + Ideal.exp (-(y i))) = Ideal.logistic (y i)
  rw [Ideal.ofBits_one_f32]
  rfl

end Cert.Nnue

end
-- ==== Proof.RefValue.lean ====
/-
  The reference's run, stage by stage, is the network of Layers at M = 65536: its second result is the raw score of
  every row, its first the logistic of that.
-/
import proofs.«133182_j67053029425688_1_alg».proof.Proof.Gen.ReferenceIdeal.Read
import proofs.«133182_j67053029425688_1_alg».proof.Proof.HostForms

noncomputable section

namespace Cert.ReferenceIdeal.RefValue

open Cert.ReferenceIdeal Cert.ReferenceIdeal.Gen Cert.ReferenceIdeal.Read Idealize.ShloMosaic Idealize.ShloMosaic.ValueIdx
open Cert.Lib Cert.Nnue

/-- The feature transformer on the white features. -/
theorem v4_eq (x0 : (⟨S65536x768, .f32⟩ : BufTy).Contents (Elt Ideal)) (x3 : (⟨S1024x768, .f32⟩ : BufTy).Contents (Elt Ideal)) (x4 : (⟨S1024, .f32⟩ : BufTy).Contents (Elt Ideal)) :
    val_main_v4 (F := Ideal) x0 x3 x4 = affine x0 x3 (rowOf x4) := by
  unfold val_main_v4 val_main_v1 val_main_v0 val_main_v3 val_main_v2
  exact host_affine dot_S65536x768_S768x1024_S65536x1024_1_0_0_1_n_n rfl rfl rfl rfl rfl rfl none x0 x3 x4 _ _ _ (by decide)

/-- The same layer on the black features. -/
theorem v9_eq (x1 : (⟨S65536x768, .f32⟩ : BufTy).Contents (Elt Ideal)) (x3 : (⟨S1024x768, .f32⟩ : BufTy).Contents (Elt Ideal)) (x4 : (⟨S1024, .f32⟩ : BufTy).Contents (Elt Ideal)) :
    val_main_v9 (F := Ideal) x1 x3 x4 = affine x1 x3 (rowOf x4) := by
  unfold val_main_v9 val_main_v6 val_main_v5 val_main_v8 val_main_v7
  exact host_affine dot_S65536x768_S768x1024_S65536x1024_1_0_0_1_n_n rfl rfl rfl rfl rfl rfl none x1 x3 x4 _ _ _ (by decide)

/-- The clamped 2048-wide array, in its first 1024 columns: the first clamped mix. -/
theorem v19_lo (x0 x1 : (⟨S65536x768, .f32⟩ : BufTy).Contents (Elt Ideal)) (x2 : (⟨S65536x1, .f32⟩ : BufTy).Contents (Elt Ideal)) (x3 : (⟨S1024x768, .f32⟩ : BufTy).Contents (Elt Ideal)) (x4 : (⟨S1024, .f32⟩ : BufTy).Contents (Elt Ideal)) (r : Fin 65536) (k : Fin 1024) :
    val_main_v19 (F := Ideal) x0 x1 x2 x3 x4 (ix2 r (lo k))
      = clip01 (mix x2 (affine x0 x3 (rowOf x4)) (affine x1 x3 (rowOf x4))) (ix2 r k) := by
  unfold val_main_v19 val_main_call0_v4 val_main_call0_v3 val_main_cst_1 val_main_call0_v2 val_main_call0_v1
    val_main_call0_v0 val_main_cst_0
  rw [host_clip, clip01_apply, clip01_apply]
  unfold val_main_v18 val_main_v12 val_main_v17 val_main_v11 val_main_v16 val_main_v14 val_main_v13 val_main_cst
    val_main_v10 val_main_v15
  rw [host_mix_lo, v4_eq, v9_eq]

/-- In its last 1024 columns: the second clamped mix. -/
theorem v19_hi (x0 x1 : (⟨S65536x768, .f32⟩ : BufTy).Contents (Elt Ideal)) (x2 : (⟨S65536x1, .f32⟩ : BufTy).Contents (Elt Ideal)) (x3 : (⟨S1024x768, .f32⟩ : BufTy).Contents (Elt Ideal)) (x4 : (⟨S1024, .f32⟩ : BufTy).Contents (Elt Ideal)) (r : Fin 65536) (k : Fin 1024) :
    val_main_v19 (F := Ideal) x0 x1 x2 x3 x4 (ix2 r (hi k))
      = clip01 (mix x2 (affine x1 x3 (rowOf x4)) (affine x0 x3 (rowOf x4))) (ix2 r k) := by
  unfold val_main_v19 val_main_call0_v4 val_main_call0_v3 val_main_cst_1 val_main_call0_v2 val_main_call0_v1
    val_main_call0_v0 val_main_cst_0
  rw [host_clip, clip01_apply, clip01_apply]
  unfold val_main_v18 val_main_v12 val_main_v17 val_main_v11 val_main_v16 val_main_v14 val_main_v13 val_main_cst
    val_main_v10 val_main_v15
  rw [host_mix_hi, v4_eq, v9_eq]

/-- The layer over the joined mixes is the split layer over the two mixes. -/
theorem v24_eq (x0 x1 : (⟨S65536x768, .f32⟩ : BufTy).Contents (Elt Ideal)) (x2 : (⟨S65536x1, .f32⟩ : BufTy).Contents (Elt Ideal)) (x3 : (⟨S1024x768, .f32⟩ : BufTy).Contents (Elt Ideal)) (x4 : (⟨S1024, .f32⟩ : BufTy).Contents (Elt Ideal)) (x5 : (⟨S8x2048, .f32⟩ : BufTy).Contents (Elt Ideal)) (x6 : (⟨S8, .f32⟩ : BufTy).Contents (Elt Ideal)) :
    val_main_v24 (F := Ideal) x0 x1 x2 x3 x4 x5 x6
      = affineSplit (clip01 (mix x2 (affine x0 x3 (rowOf x4)) (affine x1 x3 (rowOf x4))))
          (clip01 (mix x2 (affine x1 x3 (rowOf x4)) (affine x0 x3 (rowOf x4)))) x5 (rowOf x6) := by
  unfold val_main_v24 val_main_v21 val_main_v20 val_main_v23 val_main_v22
  exact host_affineSplit dot_S65536x2048_S2048x8_S65536x8_1_0_0_1_n_n rfl rfl rfl rfl rfl rfl none _ _ _
    (v19_lo x0 x1 x2 x3 x4) (v19_hi x0 x1 x2 x3 x4) x5 x6 _ _ _

theorem v25_eq (x0 x1 : (⟨S65536x768, .f32⟩ : BufTy).Contents (Elt Ideal)) (x2 : (⟨S65536x1, .f32⟩ : BufTy).Contents (Elt Ideal)) (x3 : (⟨S1024x768, .f32⟩ : BufTy).Contents (Elt Ideal)) (x4 : (⟨S1024, .f32⟩ : BufTy).Contents (Elt Ideal)) (x5 : (⟨S8x2048, .f32⟩ : BufTy).Contents (Elt Ideal)) (x6 : (⟨S8, .f32⟩ : BufTy).Contents (Elt Ideal)) :
    val_main_v25 (F := Ideal) x0 x1 x2 x3 x4 x5 x6 = clip01 (val_main_v24 (F := Ideal) x0 x1 x2 x3 x4 x5 x6) := by
  unfold val_main_v25 val_main_call1_v4 val_main_call1_v3 val_main_cst_3 val_main_call1_v2 val_main_call1_v1
    val_main_call1_v0 val_main_cst_2
  rw [host_clip]

theorem v30_eq (x0 x1 : (⟨S65536x768, .f32⟩ : BufTy).Contents (Elt Ideal)) (x2 : (⟨S65536x1, .f32⟩ : BufTy).Contents (Elt Ideal)) (x3 : (⟨S1024x768, .f32⟩ : BufTy).Contents (Elt Ideal)) (x4 : (⟨S1024, .f32⟩ : BufTy).Contents (Elt Ideal)) (x5 : (⟨S8x2048, .f32⟩ : BufTy).Contents (Elt Ideal)) (x6 : (⟨S8, .f32⟩ : BufTy).Contents (Elt Ideal)) (x7 : (⟨S32x8, .f32⟩ : BufTy).Contents (Elt Ideal)) (x8 : (⟨S32, .f32⟩ : BufTy).Contents (Elt Ideal)) :
    val_main_v30 (F := Ideal) x0 x1 x2 x3 x4 x5 x6 x7 x8
      = affine (val_main_v25 (F := Ideal) x0 x1 x2 x3 x4 x5 x6) x7 (rowOf x8) := by
  unfold val_main_v30 val_main_v27 val_main_v26 val_main_v29 val_main_v28
  exact host_affine dot_S65536x8_S8x32_S65536x32_1_0_0_1_n_n rfl rfl rfl rfl rfl rfl none _ x7 x8 _ _ _ (by decide)

theorem v31_eq (x0 x1 : (⟨S65536x768, .f32⟩ : BufTy).Contents (Elt Ideal)) (x2 : (⟨S65536x1, .f32⟩ : BufTy).Contents (Elt Ideal)) (x3 : (⟨S1024x768, .f32⟩ : BufTy).Contents (Elt Ideal)) (x4 : (⟨S1024, .f32⟩ : BufTy).Contents (Elt Ideal)) (x5 : (⟨S8x2048, .f32⟩ : BufTy).Contents (Elt Ideal)) (x6 : (⟨S8, .f32⟩ : BufTy).Contents (Elt Ideal)) (x7 : (⟨S32x8, .f32⟩ : BufTy).Contents (Elt Ideal)) (x8 : (⟨S32, .f32⟩ : BufTy).Contents (Elt Ideal)) :
    val_main_v31 (F := Ideal) x0 x1 x2 x3 x4 x5 x6 x7 x8
      = clip01 (val_main_v30 (F := Ideal) x0 x1 x2 x3 x4 x5 x6 x7 x8) := by
  unfold val_main_v31 val_main_call2_v4 val_main_call2_v3 val_main_cst_5 val_main_call2_v2 val_main_call2_v1
    val_main_call2_v0 val_main_cst_4
  rw [host_clip]

/-- The reference's raw score is the network's. -/
theorem raw_eq (x0 x1 : (⟨S65536x768, .f32⟩ : BufTy).Contents (Elt Ideal)) (x2 : (⟨S65536x1, .f32⟩ : BufTy).Contents (Elt Ideal)) (x3 : (⟨S1024x768, .f32⟩ : BufTy).Contents (Elt Ideal)) (x4 : (⟨S1024, .f32⟩ : BufTy).Contents (Elt Ideal)) (x5 : (⟨S8x2048, .f32⟩ : BufTy).Contents (Elt Ideal)) (x6 : (⟨S8, .f32⟩ : BufTy).Contents (Elt Ideal)) (x7 : (⟨S32x8, .f32⟩ : BufTy).Contents (Elt Ideal)) (x8 : (⟨S32, .f32⟩ : BufTy).Contents (Elt Ideal)) (x9 : (⟨S1x32, .f32⟩ : BufTy).Contents (Elt Ideal)) (x10 : (⟨S1, .f32⟩ : BufTy).Contents (Elt Ideal)) :
    val_main_v36 (F := Ideal) x0 x1 x2 x3 x4 x5 x6 x7 x8 x9 x10 = raw x0 x1 x2 x3 x4 x5 x6 x7 x8 x9 x10 := by
  unfold val_main_v36 val_main_v33 val_main_v32 val_main_v35 val_main_v34
  rw [host_affine dot_S65536x32_S32x1_S65536x1_1_0_0_1_n_n rfl rfl rfl rfl rfl rfl none _ x9 x10 _ _ _ (by decide),
    v31_eq, v30_eq, v25_eq, v24_eq]
  rfl

/-- The reference's first result is the logistic of the raw score. -/
theorem out_eq (x0 x1 : (⟨S65536x768, .f32⟩ : BufTy).Contents (Elt Ideal)) (x2 : (⟨S65536x1, .f32⟩ : BufTy).Contents (Elt Ideal)) (x3 : (⟨S1024x768, .f32⟩ : BufTy).Contents (Elt Ideal)) (x4 : (⟨S1024, .f32⟩ : BufTy).Contents (Elt Ideal)) (x5 : (⟨S8x2048, .f32⟩ : BufTy).Contents (Elt Ideal)) (x6 : (⟨S8, .f32⟩ : BufTy).Contents (Elt Ideal)) (x7 : (⟨S32x8, .f32⟩ : BufTy).Contents (Elt Ideal)) (x8 : (⟨S32, .f32⟩ : BufTy).Contents (Elt Ideal)) (x9 : (⟨S1x32, .f32⟩ : BufTy).Contents (Elt Ideal)) (x10 : (⟨S1, .f32⟩ : BufTy).Contents (Elt Ideal)) :
    val_main_v42 (F := Ideal) x0 x1 x2 x3 x4 x5 x6 x7 x8 x9 x10
      = sigmoid (raw x0 x1 x2 x3 x4 x5 x6 x7 x8 x9 x10) := by
  unfold val_main_v42 val_main_v41 val_main_cst_7 val_main_v40 val_main_v39 val_main_cst_6 val_main_v38 val_main_v37
  rw [host_logistic, raw_eq]

end Cert.ReferenceIdeal.RefValue

end
-- ==== Proof.lean ====
/-
  Equivalence over the extended reals of a fused two-perspective evaluation network (one kernel over 128 blocks of 512
  rows) and its array-at-a-time reference.

  Both programs compute, for every row r, the same raw score and its logistic (Proof/Layers.lean): a shared linear
  feature transformer applied to the white and the black feature vectors, the two side-to-move mixes
  s · W + (1 − s) · B and s · B + (1 − s) · W clamped to [0, 1], a linear layer over the pair of mixes, and two more
  clamped linear layers down to one number. They differ in three ways, none of which changes a value:
    * the kernel narrows its matrix operands to bf16 before each product, which is the identity on extended reals;
    * the kernel feeds the two mixes to two half-width products and adds them, where the reference joins the mixes
      side by side and takes one product of twice the width: a sum over 2048 indices is the sum over the first 1024
      plus the sum over the last 1024, whatever the terms (no finiteness is used anywhere);
    * the kernel works on 512 rows at a time, and every layer acts row by row, so row p of block t is row 512 t + p.
  The logistic is one function on both sides: the device's operation and the host's 1 / (1 + exp (−y)).

  Proof/KernelPay.lean reads the kernel body's arithmetic as the network on a block, Proof/KernelWhole.lean carries it
  from blocks to the whole result arrays, Proof/RefValue.lean reads the reference stage by stage as the same network.
  The three frames are the generated ones (the reference's is its generated run with the results dropped); there is
  nothing to preserve, the idealization having rewritten nothing.
-/
import proofs.«133182_j67053029425688_1_alg».proof.Defs
import proofs.«133182_j67053029425688_1_alg».proof.Proof.Gen.Kernel
import proofs.«133182_j67053029425688_1_alg».proof.Proof.Gen.Kernel.Skeleton
import proofs.«133182_j67053029425688_1_alg».proof.Proof.Gen.Kernel.Launch
import proofs.«133182_j67053029425688_1_alg».proof.Proof.Gen.Kernel.Points
import proofs.«133182_j67053029425688_1_alg».proof.Proof.Gen.Kernel.Frame
import proofs.«133182_j67053029425688_1_alg».proof.Proof.Gen.KernelIdeal
import proofs.«133182_j67053029425688_1_alg».proof.Proof.Gen.KernelIdeal.Skeleton
import proofs.«133182_j67053029425688_1_alg».proof.Proof.Gen.KernelIdeal.Launch
import proofs.«133182_j67053029425688_1_alg».proof.Proof.Gen.KernelIdeal.Points
import proofs.«133182_j67053029425688_1_alg».proof.Proof.Gen.KernelIdeal.Frame
import proofs.«133182_j67053029425688_1_alg».proof.Proof.Gen.ReferenceIdeal
import proofs.«133182_j67053029425688_1_alg».proof.Proof.Gen.Pre_finite_inputs
import proofs.«133182_j67053029425688_1_alg».proof.Proof.Gen.KernelIdeal.Value
import proofs.«133182_j67053029425688_1_alg».proof.Proof.Gen.ReferenceIdeal.Run
import proofs.«133182_j67053029425688_1_alg».proof.Proof.Gen.ReferenceIdeal.Read
import proofs.«133182_j67053029425688_1_alg».proof.Proof.KernelWhole
import proofs.«133182_j67053029425688_1_alg».proof.Proof.RefValue
import Idealize.ShloMosaic.Adequacy
import Idealize.ShloMosaic.Init

noncomputable section

namespace Cert.Proof

open Idealize.ShloMosaic Idealize.ShloMosaic.TcCoe Idealize.SL.Sem Cert.Nnue

theorem frame_k : Cert.frame_Kernel := fun m ρ _ => Cert.Kernel.Gen.frame m ρ

theorem frame_ki : Cert.frame_KernelIdeal := fun m ρ _ => Cert.KernelIdeal.Gen.frame m ρ

/-- The reference's run ends with the arguments unchanged: its generated run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories that agree on the eleven arguments, the kernel's first result and the reference's are both the
    logistic of the network's raw score of the arguments, and their second results the raw score itself. -/
theorem algebraic : Cert.algebraic_KernelIdeal_ReferenceIdeal := by
  intro m ρ m' ρ' _ hagree
  refine ⟨fun c => sigmoid (Cert.KernelIdeal.Whole.rawAll m c), fun c => Cert.KernelIdeal.Whole.rawAll m c,
    Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10⟩ := hagree c
    refine ((Cert.ReferenceIdeal.Read.val_main_v42_eq _ _ _ _ _ _ _ _ _ _ _).trans
      (Cert.ReferenceIdeal.RefValue.out_eq _ _ _ _ _ _ _ _ _ _ _)).trans ?_
    rw [e0, e1, e2, e3, e4, e5, e6, e7, e8, e9, e10]
    rfl
  · obtain ⟨e0, e1, e2, e3, e4, e5, e6, e7, e8, e9, e10⟩ := hagree c
    refine ((Cert.ReferenceIdeal.Read.val_main_v36_eq _ _ _ _ _ _ _ _ _ _ _).trans
      (Cert.ReferenceIdeal.RefValue.raw_eq _ _ _ _ _ _ _ _ _ _ _)).trans ?_
    rw [e0, e1, e2, e3, e4, e5, e6, e7, e8, e9, e10]
    rfl

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
